-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4096x256 .f32) (main_arg1 : FVec F S4096x4096 .f32) (main_arg2 : FVec F S256x128 .f32) (main_arg3 : FVec F S128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S1x128 : Shape := ⟨2, ![1, 128]⟩
abbrev S4096x128 : Shape := ⟨2, ![4096, 128]⟩
abbrev S512x256 : Shape := ⟨2, ![512, 256]⟩
abbrev S512x128 : Shape := ⟨2, ![512, 128]⟩
abbrev S512x4096 : Shape := ⟨2, ![512, 4096]⟩

abbrev nBuf : Space → Nat
  | .hbm => 7
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S128, .f32⟩
  | .hbm, ⟨4, _⟩ => ⟨S1x128, .f32⟩
  | .hbm, ⟨5, _⟩ => ⟨S4096x128, .f32⟩
  | .hbm, ⟨6, _⟩ => ⟨S4096x128, .f32⟩
  | .local _ .vmem, ⟨0, _⟩ => ⟨S512x256, .f32⟩
  | .local _ .vmem, ⟨1, _⟩ => ⟨S512x256, .f32⟩
  | .local _ .vmem, ⟨2, _⟩ => ⟨S256x128, .f32⟩
  | .local _ .vmem, ⟨3, _⟩ => ⟨S512x128, .f32⟩
  | .local _ .vmem, ⟨4, _⟩ => ⟨S512x128, .f32⟩
  | .local _ .vmem, ⟨5, _⟩ => ⟨S512x4096, .f32⟩
  | .local _ .vmem, ⟨6, _⟩ => ⟨S512x4096, .f32⟩
  | .local _ .vmem, ⟨7, _⟩ => ⟨S4096x128, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S512x256_S512x256_0_0 : ∀ a, (![0, 0] : Fin 2 → Nat) a + S512x256.size a ≤ S512x256.size a
  h_S512x256 : 0 < S512x256.numel
  inb_S256x128_S256x128_0_0 : ∀ a, (![0, 0] : Fin 2 → Nat) a + S256x128.size a ≤ S256x128.size a
  h_S256x128 : 0 < S256x128.numel
  inb_S512x128_S512x128_0_0 : ∀ a, (![0, 0] : Fin 2 → Nat) a + S512x128.size a ≤ S512x128.size a
  h_S512x128 : 0 < S512x128.numel
  inb_S512x4096_S512x4096_0_0 : ∀ a, (![0, 0] : Fin 2 → Nat) a + S512x4096.size a ≤ S512x4096.size a
  h_S512x4096 : 0 < S512x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  dot_S512x256_S256x128_S512x128_1_0_0_1_n_n_wf : DotDims.WF S512x256 S256x128 S512x128 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .f32 = 32 ∨ (Rect.block (s := S4096x128) S512x128.size (cc1_transform_3 i) (hinb1_3 i)).WholeWords (EltTy.packing .f32)

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S0 : Shape := ⟨1, ![0]⟩
abbrev S_ : Shape := ⟨0, ![]⟩
abbrev S1x128 : Shape := ⟨2, ![1, 128]⟩
abbrev S1 : Shape := ⟨1, ![1]⟩
abbrev S4096x128 : Shape := ⟨2, ![4096, 128]⟩
abbrev S512x256 : Shape := ⟨2, ![512, 256]⟩
abbrev S512x128 : Shape := ⟨2, ![512, 128]⟩
abbrev S512x512 : Shape := ⟨2, ![512, 512]⟩

abbrev nBuf : Space → Nat
  | .hbm => 23
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S128, .f32⟩
  | .hbm, ⟨4, _⟩ => ⟨S0, .i32⟩
  | .hbm, ⟨5, _⟩ => ⟨S0, .i32⟩
  | .hbm, ⟨6, _⟩ => ⟨S0, .i32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S256x128, .f32⟩
  | .hbm, ⟨15, _⟩ => ⟨S256x128, .f32⟩
  | .hbm, ⟨16, _⟩ => ⟨S_, .f32⟩
  | .hbm, ⟨17, _⟩ => ⟨S1x128, .f32⟩
  | .hbm, ⟨18, _⟩ => ⟨S_, .i32⟩
  | .hbm, ⟨19, _⟩ => ⟨S1, .i32⟩
  | .hbm, ⟨20, _⟩ => ⟨S1x128, .f32⟩
  | .hbm, ⟨21, _⟩ => ⟨S4096x128, .f32⟩
  | .hbm, ⟨22, _⟩ => ⟨S4096x128, .f32⟩
  | .local _ .vmem, ⟨0, _⟩ => ⟨S512x256, .f32⟩
  | .local _ .vmem, ⟨1, _⟩ => ⟨S512x256, .f32⟩
  | .local _ .vmem, ⟨2, _⟩ => ⟨S256x128, .f32⟩
  | .local _ .vmem, ⟨3, _⟩ => ⟨S512x128, .f32⟩
  | .local _ .vmem, ⟨4, _⟩ => ⟨S512x128, .f32⟩
  | .local _ .vmem, ⟨5, _⟩ => ⟨S512x512, .f32⟩
  | .local _ .vmem, ⟨6, _⟩ => ⟨S512x512, .f32⟩
  | .local _ .vmem, ⟨7, _⟩ => ⟨S512x128, .f32⟩
  | .local _ .vmem, ⟨8, _⟩ => ⟨S512x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_c_0 : Ref sig .tc := ⟨.hbm, 5, rfl⟩
abbrev main_call0_c_1 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_cst_2 : Ref sig .tc := ⟨.hbm, 10, rfl⟩
abbrev main_call0_v2 : Ref sig .tc := ⟨.hbm, 11, rfl⟩
abbrev main_call0_v3 : Ref sig .tc := ⟨.hbm, 12, rfl⟩
abbrev main_call0_cst_3 : Ref sig .tc := ⟨.hbm, 13, rfl⟩
abbrev main_call0_v4 : Ref sig .tc := ⟨.hbm, 14, rfl⟩
abbrev main_call0_v5 : Ref sig .tc := ⟨.hbm, 15, rfl⟩
abbrev main_call0_cst_4 : Ref sig .tc := ⟨.hbm, 16, rfl⟩
abbrev main_call0_v6 : Ref sig .tc := ⟨.hbm, 17, rfl⟩
abbrev main_call0_c_5 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  hz_S0 : S0.numel = 0
  bcast_S_S4096x256 : S_.BroadcastsInDim S4096x256 (![] : Fin 0 → Fin S4096x256.rank)
  bcast_S_S4096x4096 : S_.BroadcastsInDim S4096x4096 (![] : Fin 0 → Fin S4096x4096.rank)
  bcast_S_S256x128 : S_.BroadcastsInDim S256x128 (![] : Fin 0 → Fin S256x128.rank)
  bcast_S_S1x128 : S_.BroadcastsInDim S1x128 (![] : Fin 0 → Fin S1x128.rank)
  bcast_S_S1 : S_.BroadcastsInDim S1 (![] : Fin 0 → Fin S1.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  scatter_S4096x256_S0_S4096x256_01_n_n_0_wf : ScatterDims.WF S4096x256 S0 S4096x256 [0, 1] [] [] 0
  scatter_S4096x4096_S0_S4096x4096_01_n_n_0_wf : ScatterDims.WF S4096x4096 S0 S4096x4096 [0, 1] [] [] 0
  scatter_S256x128_S0_S256x128_01_n_n_0_wf : ScatterDims.WF S256x128 S0 S256x128 [0, 1] [] [] 0
  scatter_S1x128_S1_S128_0_0_0_0_wf : ScatterDims.WF S1x128 S1 S128 [0] [0] [0] 0
  dot_S512x256_S256x128_S512x128_1_0_0_1_n_n_wf : DotDims.WF S512x256 S256x128 S512x128 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .f32 = 32 ∨ (Rect.block (s := S4096x4096) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S4096x128.size a
  hwx1_1 : ∀ i : grid1.Coords, EltTy.bits .f32 = 32 ∨ (Rect.block (s := S4096x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .f32 = 32 ∨ (Rect.block (s := S4096x128) S512x128.size (cc1_transform_3 i) (hinb1_3 i)).WholeWords (EltTy.packing .f32)

variable [Facts₀]

def scatter_S4096x256_S0_S4096x256_01_n_n_0 : ScatterDims S4096x256 S0 S4096x256 where
  updateWindowDims := [0, 1]
  insertedWindowDims := []
  scatterDimsToOperandDims := []
  indexVectorDim := 0
  wf := scatter_S4096x256_S0_S4096x256_01_n_n_0_wf
def scatter_S4096x4096_S0_S4096x4096_01_n_n_0 : ScatterDims S4096x4096 S0 S4096x4096 where
  updateWindowDims := [0, 1]
  insertedWindowDims := []
  scatterDimsToOperandDims := []
  indexVectorDim := 0
  wf := scatter_S4096x4096_S0_S4096x4096_01_n_n_0_wf
def scatter_S256x128_S0_S256x128_01_n_n_0 : ScatterDims S256x128 S0 S256x128 where
  updateWindowDims := [0, 1]
  insertedWindowDims := []
  scatterDimsToOperandDims := []
  indexVectorDim := 0
  wf := scatter_S256x128_S0_S256x128_01_n_n_0_wf
def scatter_S1x128_S1_S128_0_0_0_0 : ScatterDims S1x128 S1 S128 where
  updateWindowDims := [0]
  insertedWindowDims := [0]
  scatterDimsToOperandDims := [0]
  indexVectorDim := 0
  wf := scatter_S1x128_S1_S128_0_0_0_0_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_call0_v1) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v3) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v9) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v8) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.Spec.lean ====
/-
  The graph-convolution layer as ONE function of its four argument arrays over the extended reals:
  support = x · weight (a sum over the 256 input features), out = adj · support + bias (a sum over the
  4096 nodes, the bias added once per column). Both programs are read against these two functions.
  The one algebraic fact that joins them: a sum over 4096 nodes is the sum, over the 8 bands of 512
  nodes, of each band's sum, and a running total started at zero that adds one band at a time is that
  sum — addition on the extended reals is associative and commutative, so no finiteness is used.
-/
import Idealize.ShloMosaic.PureOps.Ideal
import Idealize.ShloMosaic.Lib.ValueIdx

noncomputable section

open scoped BigOperators

namespace Cert.Spec

open Idealize.ShloMosaic Idealize.ShloMosaic.ValueIdx

/-- support[p, q] = Σ_l x[p, l] · weight[l, q]. -/
def supAt (x : FVec Ideal ⟨2, ![4096, 256]⟩ .f32) (w : FVec Ideal ⟨2, ![256, 128]⟩ .f32) (p : Fin 4096) (q : Fin 128) : EReal :=
  ∑ l : Fin 256, x (ix2 p l) * w (ix2 l q)

/-- The support array. -/
def sup (x : FVec Ideal ⟨2, ![4096, 256]⟩ .f32) (w : FVec Ideal ⟨2, ![256, 128]⟩ .f32) : FVec Ideal ⟨2, ![4096, 128]⟩ .f32 :=
  fun i => supAt x w (i 0) (i 1)

/-- out[p, q] = (Σ_k adj[p, k] · s[k, q]) + bias[q]. -/
def aggAt (adj : FVec Ideal ⟨2, ![4096, 4096]⟩ .f32) (s : FVec Ideal ⟨2, ![4096, 128]⟩ .f32) (b : FVec Ideal ⟨1, ![128]⟩ .f32)
    (p : Fin 4096) (q : Fin 128) : EReal :=
  (∑ k : Fin 4096, adj (ix2 p k) * s (ix2 k q)) + b (ix1 q)

/-- The aggregate over a given support array. -/
def agg (adj : FVec Ideal ⟨2, ![4096, 4096]⟩ .f32) (s : FVec Ideal ⟨2, ![4096, 128]⟩ .f32) (b : FVec Ideal ⟨1, ![128]⟩ .f32) :
    FVec Ideal ⟨2, ![4096, 128]⟩ .f32 :=
  fun i => aggAt adj s b (i 0) (i 1)

/-- The layer: the aggregate of the support. -/
def out (x : FVec Ideal ⟨2, ![4096, 256]⟩ .f32) (adj : FVec Ideal ⟨2, ![4096, 4096]⟩ .f32) (w : FVec Ideal ⟨2, ![256, 128]⟩ .f32)
    (b : FVec Ideal ⟨1, ![128]⟩ .f32) : FVec Ideal ⟨2, ![4096, 128]⟩ .f32 :=
  agg adj (sup x w) b

/-- Node 512·b + q of band b. -/
def node (b : Fin 8) (q : Fin 512) : Fin 4096 := ⟨512 * b.val + q.val, by have := b.isLt; have := q.isLt; omega⟩

/-- A sum over the 4096 nodes is the sum over the 8 bands of each band's 512 terms. -/
theorem sum_bands {M : Type*} [AddCommMonoid M] (f : Fin 4096 → M) : ∑ k : Fin 4096, f k = ∑ b : Fin 8, ∑ q : Fin 512, f (node b q) := by
  rw [← Fintype.sum_prod_type']
  exact (Equiv.sum_comp (finProdFinEquiv : Fin 8 × Fin 512 ≃ Fin (8 * 512)) f).symm.trans
    (Finset.sum_congr rfl fun bq _ => congrArg f (Fin.ext (by simp [node, finProdFinEquiv, Nat.add_comm])))

/-- The running total of the band sums: zero plus band 0, then one more band per step. -/
def running {M : Type*} [AddCommMonoid M] (P : ℕ → M) : ℕ → M
  | 0 => 0 + P 0
  | n + 1 => running P n + P (n + 1)

/-- After band n the running total is the sum of bands 0 … n. -/
theorem running_eq {M : Type*} [AddCommMonoid M] (P : ℕ → M) (n : ℕ) : running P n = ∑ k ∈ Finset.range (n + 1), P k := by
  induction n with
  | zero => simp [running]
  | succ n ih => rw [running, ih, Finset.sum_range_succ (n := n + 1)]

/-- After the last band it is the sum over all 8 bands. -/
theorem running_seven {M : Type*} [AddCommMonoid M] (P : ℕ → M) : running P 7 = ∑ b : Fin 8, P b.val := by
  rw [running_eq, Fin.sum_univ_eq_sum_range (fun k => P k) 8]

end Cert.Spec

end
-- ==== Proof.LibMatmul.lean ====
import Idealize.ShloMosaic.Lib.ValueIdx
import Idealize.ShloMosaic.PureOps.Ideal.Laws

noncomputable section

open scoped BigOperators

namespace Cert.LibMatmul

open Idealize.ShloMosaic Idealize.ShloMosaic.ValueIdx

/-! ## A plain matrix product read at one index

  The dimension numbers of an `M×K` by `K×N` product contract axis 1 of the left operand with axis 0 of the right
  one, keep axis 0 of the left and axis 1 of the right, and have no batch axes. For such a record the contraction index
  set is `Fin K`, the left operand is read at `(p, k)` and the right one at `(k, q)`, so the product at `(p, q)`
  is the accumulator plus `∑ k, lhs (p, k) * rhs (k, q)` in the extended reals. -/

section Plain
variable {M K N : Nat} (d : DotDims ⟨2, ![M, K]⟩ ⟨2, ![K, N]⟩ ⟨2, ![M, N]⟩)

/-- One contracting axis: the contraction shape has rank 1. -/
theorem contr_rank (hlc : d.lhsContracting = [1]) : d.contr.rank = 1 := by
  rw [d.rank_contr, hlc]; rfl

/-- Its one extent is the left operand's extent on axis 1, which is `K`. -/
theorem contr_size (hlc : d.lhsContracting = [1]) :
    d.contr.size ⟨0, by rw [contr_rank d hlc]; exact Nat.one_pos⟩ = K := by
  obtain ⟨lc, rc, ln, rn, lb, rb, wf⟩ := d
  simp only at hlc
  subst hlc
  rfl

/-- Left operand, axis 0 (kept, first among the result's axes): the result index's coordinate 0. -/
theorem lhs_axis0 (hln : d.lhsNonContracting = [0]) (hlb : d.lhsBatch = [])
    (p : Fin M) (q : Fin N) (k : d.contr.Idx) : d.lhsIdx (ix2 p q) k 0 = p := by
  obtain ⟨lc, rc, ln, rn, lb, rb, wf⟩ := d
  simp only at hln hlb
  subst hln hlb
  apply Fin.ext
  unfold DotDims.lhsIdx
  rw [dif_neg (by simp), dif_pos (by simp)]
  rfl

/-- Left operand, axis 1 (contracted): the contraction index's one coordinate. -/
theorem lhs_axis1 (hlc : d.lhsContracting = [1]) (p : Fin M) (q : Fin N) (k : d.contr.Idx) :
    (d.lhsIdx (ix2 p q) k 1).val = (k ⟨0, by rw [contr_rank d hlc]; exact Nat.one_pos⟩).val :=
  d.lhsIdx_val_of_single hlc (ix2 p q) k

/-- Right operand, axis 0 (contracted): the contraction index's one coordinate. -/
theorem rhs_axis0 (hlc : d.lhsContracting = [1]) (hrc : d.rhsContracting = [0]) (p : Fin M) (q : Fin N)
    (k : d.contr.Idx) :
    (d.rhsIdx (ix2 p q) k 0).val = (k ⟨0, by rw [contr_rank d hlc]; exact Nat.one_pos⟩).val :=
  d.rhsIdx_val_of_single hrc (ix2 p q) k

/-- Right operand, axis 1 (kept, after the left operand's kept axis): the result index's coordinate 1. -/
theorem rhs_axis1 (hln : d.lhsNonContracting = [0]) (hrn : d.rhsNonContracting = [1]) (hlb : d.lhsBatch = [])
    (hrb : d.rhsBatch = []) (p : Fin M) (q : Fin N) (k : d.contr.Idx) : d.rhsIdx (ix2 p q) k 1 = q := by
  obtain ⟨lc, rc, ln, rn, lb, rb, wf⟩ := d
  simp only at hln hrn hlb hrb
  subst hln hrn hlb hrb
  apply Fin.ext
  unfold DotDims.rhsIdx
  rw [dif_neg (by simp), dif_pos (by simp)]
  rfl

/-- The product at `(p, q)`: the accumulator there plus the sum over `k : Fin K` of `lhs (p, k) * rhs (k, q)`. -/
theorem matmul_acc_ix2 {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (acc : FVec Ideal ⟨2, ![M, N]⟩ .f32)
    (p : Fin M) (q : Fin N) :
    matmul d prec lhs rhs acc (ix2 p q) = acc (ix2 p q) + ∑ k : Fin K, lhs (ix2 p k) * rhs (ix2 k q) := by
  have hr := contr_rank d hlc
  have hs := contr_size d hlc
  show FloatOps.matmul d prec lhs rhs acc (ix2 p q) = _
  rw [Ideal.matmul_apply, ← Equiv.sum_comp (contrEquiv1 d K hr hs).symm]
  refine congrArg (acc (ix2 p q) + ·) (Finset.sum_congr rfl fun c _ => ?_)
  have hc := contrEquiv1_symm_val d K hr hs c
  have hl : d.lhsIdx (ix2 p q) ((contrEquiv1 d K hr hs).symm c) = ix2 p c := by
    funext a
    match a with
    | ⟨0, _⟩ => exact lhs_axis0 d hln hlb p q _
    | ⟨1, _⟩ => exact Fin.ext ((lhs_axis1 d hlc p q _).trans hc)
  have hr' : d.rhsIdx (ix2 p q) ((contrEquiv1 d K hr hs).symm c) = ix2 c q := by
    funext a
    match a with
    | ⟨0, _⟩ => exact Fin.ext ((rhs_axis0 d hlc hrc p q _).trans hc)
    | ⟨1, _⟩ => exact rhs_axis1 d hln hrn hlb hrb p q _
  rw [hl, hr']

/-- Into the zero accumulator (the f32 word `0x00000000`, the extended real `0`): just the sum. -/
theorem matmul_zero_ix2 {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  rw [matmul_acc_ix2 d hlc hrc hln hrn hlb hrb]
  show Ideal.ofBits .f32 0x00000000#32 + _ = _
  rw [Ideal.ofBits_zero_f32, zero_add]

end Plain

end Cert.LibMatmul
-- ==== Proof.KValue0.lean ====
/-
  REGION 0 of the graph-convolution layer read as a value, over the extended reals: whatever the arrays hold when the
  region is entered, the support array ends holding x · weight. Each of the 8 grid points computes one band of 512 rows:
  its x block is rows 512·b … 512·b + 511 of x, its weight block the whole weight, and the body's product (accumulated
  into a zero constant) at a block entry is the sum over the 256 features of x entry times weight entry. The 8 bands
  tile the 4096 rows (row r lies in band r / 512), so the array is the support at every entry.
-/
import proofs.«117604_g2000604348336631_pallaspilot1_43_2_alg».proof.Proof.Gen.KernelIdeal.Frame
import proofs.«117604_g2000604348336631_pallaspilot1_43_2_alg».proof.Proof.Spec
import Idealize.ShloMosaic.Lib.Pipeline.Value
import Idealize.ShloMosaic.Lib.ValueIdx
import proofs.«117604_g2000604348336631_pallaspilot1_43_2_alg».proof.Proof.LibMatmul
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole-buffer rectangle's offsets are zero on both axes. -/
theorem zero_offsets : (![0, 0] : Fin 2 → Nat) = fun _ => 0 := funext fun a => by fin_cases a <;> rfl

/-- The support body's product at an entry: the sum over the 256 features of band entry times weight entry
    (the product accumulates into a zero constant). -/
theorem support_pay_apply (x0 : Vec Ideal S512x256 .f32) (x1 : Vec Ideal S256x128 .f32) (p : Fin 512) (q : Fin 128) :
    k0_pay1 x0 x1 (ix2 p q) = ∑ l : Fin 256, x0 (ix2 p l) * x1 (ix2 l q) := by
  unfold k0_pay1
  exact Cert.LibMatmul.matmul_zero_ix2 _ rfl rfl rfl rfl rfl rfl _ _ _ _ _

/-- The three windows' block indices over the grid: the band of x moves with the band of the support, the weight's
    block and every column block stay at 0, and there are 8 bands. -/
theorem index_facts0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 7 :=
  (by decide +kernel : ∀ t : Fin grid0.N, _)

/-- Every band is some point's. -/
theorem index_onto0 : ∀ q0 : Fin 8, ∃ t : Fin cfg0.N, win0_2.index t = ![q0.val, 0] :=
  (by decide +kernel : ∀ q0 : Fin 8, ∃ t : Fin grid0.N, win0_2.index t = ![q0.val, 0])

/-- Band b of the support, entry by entry: if the x block is rows 512·b … of x and the weight block is the weight,
    the body's product at block entry j is the support at array entry (512·b + j₀, j₁). -/
theorem sup_block (X : Vec Ideal S4096x256 .f32) (Wt : Vec Ideal S256x128 .f32)
    (x0 : Vec Ideal S512x256 .f32) (x1 : Vec Ideal S256x128 .f32) (b b1 : Nat) (hb1 : b1 = 0)
    (h0 : ∀ (y : S512x256.Idx) (k : S4096x256.Idx), (k 0).val = b * 512 + 1 * (y 0).val → (k 1).val = (y 1).val → x0 y = X k)
    (h1 : x1 = Wt) (j : S512x128.Idx) (i : S4096x128.Idx)
    (hi0 : (i 0).val = b * 512 + 1 * (j 0).val) (hi1 : (i 1).val = b1 * 128 + 1 * (j 1).val) :
    k0_pay1 x0 x1 j = Cert.Spec.sup X Wt i := by
  obtain ⟨p, q, rfl⟩ : ∃ (p : Fin 512) (q : Fin 128), j = ix2 p q := ⟨j 0, j 1, eq_ix2 j⟩
  rw [support_pay_apply]
  subst h1 hb1
  unfold Cert.Spec.sup Cert.Spec.supAt
  refine Finset.sum_congr rfl fun l _ => ?_
  congr 1
  · exact h0 _ _ hi0 rfl
  · exact congrArg x1 (congrArg (ix2 l) (Fin.ext (by rw [hi1]; show q.val = 0 * 128 + 1 * q.val; omega)))

/-- The x window's block at a point is the band of x the point's support band names. -/
theorem iblk0_0_apply (c : Dev nD) (t : Fin cfg0.N) (y : S512x256.Idx) (k : S4096x256.Idx)
    (hk0 : (k 0).val = win0_2.index t (0 : Fin 2) * 512 + 1 * (y 0).val) (hk1 : (k 1).val = (y 1).val) :
    (iblk0 V c 0 t : Vec Ideal S512x256 .f32) y = (V c main_arg0 : Vec Ideal S4096x256 .f32) k := by
  obtain ⟨e0, e1, -, -, -, -⟩ := index_facts0 t
  unfold iblk0
  rw [View.read_apply]
  show V c main_arg0 _ = V c main_arg0 _
  congr 1
  funext a
  apply Fin.ext
  match a with
  | ⟨0, _⟩ => show win0_0.index t (0 : Fin 2) * 512 + 1 * (y 0).val = (k 0).val; omega
  | ⟨1, _⟩ => show win0_0.index t (1 : Fin 2) * 256 + 1 * (y 1).val = (k 1).val; omega

/-- The weight window's block at every point is the whole weight. -/
theorem iblk0_1_eq (c : Dev nD) (t : Fin cfg0.N) :
    (iblk0 V c 1 t : Vec Ideal S256x128 .f32) = (V c main_arg2 : Vec Ideal S256x128 .f32) := by
  obtain ⟨-, -, e2, e3, -, -⟩ := index_facts0 t
  funext y
  unfold iblk0
  rw [View.read_apply]
  show V c main_arg2 _ = V c main_arg2 _
  congr 1
  funext a
  apply Fin.ext
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- What a point writes back is its band of the support of the arrays as the region finds them. -/
theorem sup_flushed (c : Dev nD) (t : Fin cfg0.N) :
    (dat0 V c).flushed 2 t = ((cfg0.win 2).blk t).view.read (Elt Ideal) (Cert.Spec.sup (V c main_arg0) (V c main_arg2)) := by
  show (cfg0.win 2).cut (grid0.coords t) ((dat0 V c).after 2 t) = _
  rw [after0_2]
  unfold out0_2
  rw [View.canon_unit_zero zero_offsets]
  simp only [View.ld_unit_zero (S := S512x256) zero_offsets, View.ld_unit_zero (S := S256x128) zero_offsets]
  funext j
  exact sup_block (V c main_arg0) (V c main_arg2) (iblk0 V c 0 t) (iblk0 V c 1 t) (win0_2.index t (0 : Fin 2)) (win0_2.index t (1 : Fin 2))
    (index_facts0 t).2.2.2.2.1 (fun y k h0 h1 => iblk0_0_apply V c t y k h0 h1) (iblk0_1_eq V c t) j (((cfg0.win 2).blk t).view.emb j) rfl rfl

/-- An entry of the support array is in a point's block iff each coordinate is in the block's range. -/
theorem mem_blk0 (t : Fin cfg0.N) (i : S4096x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_call0_v1).slice (win0_2.rect t)).set ↔ _
  rw [View.set_slice_whole, Rect.mem_set_unit]
  exact Iff.rfl

/-- Row r of the support is in band r / 512: the 8 bands cover the array. -/
theorem cover0 (i : S4096x128.Idx) : ∃ t : Fin cfg0.N, (cfg0.win 2).flush t = true ∧ i ∈ ((cfg0.win 2).blk t).view.set := by
  have hi0 : (i 0).val < 4096 := (i 0).isLt
  have hi1 : (i 1).val < 128 := (i 1).isLt
  obtain ⟨t, ht⟩ := index_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 128 ≤ (i 1).val ∧ (i 1).val < win0_2.index t (1 : Fin 2) * 128 + 128; omega

/-- REGION 0's result: the support array ends holding x · weight of the arrays as the region finds them. -/
theorem sup_val (c : Dev nD) : (Gen.dat0 (F := Ideal) V c).arrAt 2 cfg0.N = Cert.Spec.sup (V c main_arg0) (V c main_arg2) :=
  (dat0 V c).arrAt_eq_of_cover 2 (Cert.Spec.sup (V c main_arg0) (V c main_arg2)) (fun t _ => sup_flushed V c t) cover0

end Cert.KernelIdeal.Hand
end
-- ==== Proof.KValue1.lean ====
/-
  REGION 1 of the graph-convolution layer read as a value, over the extended reals: whatever the arrays hold when the
  region is entered, the result array ends holding adj · support + bias row. Each of the 8 grid points computes one band
  of 512 rows: its adj block is rows 512·b … 512·b + 511 of adj, its support block the whole support array, its bias block
  the whole [1,128] row, and the body's value at a block entry is the sum over the 4096 nodes of adj entry times support
  entry plus the row's entry of that column (the row repeated down the band). The 8 bands tile the 4096 rows.
-/
import proofs.«117604_g2000604348336631_pallaspilot1_43_2_alg».proof.Proof.Gen.KernelIdeal.Frame
import proofs.«117604_g2000604348336631_pallaspilot1_43_2_alg».proof.Proof.Spec
import Idealize.ShloMosaic.Lib.Pipeline.Value
import Idealize.ShloMosaic.Lib.ValueIdx
import proofs.«117604_g2000604348336631_pallaspilot1_43_2_alg».proof.Proof.LibMatmul
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole-buffer rectangle's offsets are zero on both axes. -/
theorem zero_offsets1 : (![0, 0] : Fin 2 → Nat) = fun _ => 0 := funext fun a => by fin_cases a <;> rfl

/-- out[p, q] over a given support array and the bias as a row [1,128]: (Σ_k adj[p, k] · s[k, q]) + b[0, q]. -/
def aggRowAt (adj : Vec Ideal S4096x4096 .f32) (s : Vec Ideal S4096x128 .f32) (b : Vec Ideal S1x128 .f32)
    (p : Fin 4096) (q : Fin 128) : EReal :=
  (∑ k : Fin 4096, adj (ix2 p k) * s (ix2 k q)) + b (ix2 (0 : Fin 1) q)

/-- The aggregate array over a given support array and bias row. -/
def aggRow (adj : Vec Ideal S4096x4096 .f32) (s : Vec Ideal S4096x128 .f32) (b : Vec Ideal S1x128 .f32) :
    Vec Ideal S4096x128 .f32 :=
  fun i => aggRowAt adj s b (i 0) (i 1)

/-- The aggregate body's value at an entry: the sum over the 4096 nodes of adjacency entry times support entry,
    plus the bias row's entry of that column (the row is repeated down the 512 rows). -/
theorem aggregate_pay_apply (x0 : Vec Ideal S512x4096 .f32) (x1 : Vec Ideal S4096x128 .f32) (x2 : Vec Ideal S1x128 .f32)
    (p : Fin 512) (q : Fin 128) :
    k1_pay1 x0 x1 x2 (ix2 p q) = (∑ k : Fin 4096, x0 (ix2 p k) * x1 (ix2 k q)) + x2 (ix2 (0 : Fin 1) q) := by
  have e1 : shapeCast S4096x128 x1 shapeCasts_S4096x128_S4096x128 = x1 := shapeCast_self _ _
  have e2 : shapeCast S1x128 x2 shapeCasts_S1x128_S1x128 = x2 := shapeCast_self _ _
  unfold k1_pay1
  refine (addf_apply _ _ _).trans (congrArg₂ (· + ·) ?_ ?_)
  · refine (Cert.LibMatmul.matmul_zero_ix2 _ rfl rfl rfl rfl rfl rfl _ _ _ _ _).trans ?_
    exact Finset.sum_congr rfl fun k _ => congrArg (x0 (ix2 p k) * ·) (congrFun e1 _)
  · refine (broadcastTo_apply _ _ _ (ix2 (0 : Fin 1) q) fun a => ?_).trans (congrFun e2 _)
    match a with
    | ⟨0, _⟩ => rfl
    | ⟨1, _⟩ => rfl

/-- The four windows' block indices over the grid: the band of adj moves with the band of the result, the support's,
    the bias row's and every column block stay at 0, and there are 8 bands. -/
theorem index_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 7 :=
  (by decide +kernel : ∀ t : Fin grid1.N, _)

/-- Every band is some point's. -/
theorem index_onto1 : ∀ q0 : Fin 8, ∃ t : Fin cfg1.N, win1_3.index t = ![q0.val, 0] :=
  (by decide +kernel : ∀ q0 : Fin 8, ∃ t : Fin grid1.N, win1_3.index t = ![q0.val, 0])

/-- Band b of the result, entry by entry: if the adj block is rows 512·b … of adj, the support block the whole support
    and the bias block the whole bias row, the body's value at block entry j is the aggregate at array entry (512·b + j₀, j₁). -/
theorem agg_block (A : Vec Ideal S4096x4096 .f32) (S : Vec Ideal S4096x128 .f32) (B : Vec Ideal S1x128 .f32)
    (x0 : Vec Ideal S512x4096 .f32) (x1 : Vec Ideal S4096x128 .f32) (x2 : Vec Ideal S1x128 .f32) (b b1 : Nat) (hb1 : b1 = 0)
    (h0 : ∀ (y : S512x4096.Idx) (k : S4096x4096.Idx), (k 0).val = b * 512 + 1 * (y 0).val → (k 1).val = (y 1).val → x0 y = A k)
    (h1 : x1 = S) (h2 : x2 = B) (j : S512x128.Idx) (i : S4096x128.Idx)
    (hi0 : (i 0).val = b * 512 + 1 * (j 0).val) (hi1 : (i 1).val = b1 * 128 + 1 * (j 1).val) :
    k1_pay1 x0 x1 x2 j = aggRow A S B i := by
  obtain ⟨p, q, rfl⟩ : ∃ (p : Fin 512) (q : Fin 128), j = ix2 p q := ⟨j 0, j 1, eq_ix2 j⟩
  rw [aggregate_pay_apply]
  subst h1 h2 hb1
  unfold aggRow aggRowAt
  have hq : q = i 1 := Fin.ext (by rw [hi1]; show q.val = 0 * 128 + 1 * q.val; omega)
  refine congrArg₂ (· + ·) (Finset.sum_congr rfl fun k _ => congrArg₂ (· * ·) ?_ ?_) ?_
  · exact h0 _ _ hi0 rfl
  · exact congrArg x1 (congrArg (ix2 k) hq)
  · exact congrArg x2 (congrArg (ix2 (0 : Fin 1)) hq)

/-- The adj window's block at a point is the band of adj the point's result band names. -/
theorem iblk1_0_apply (c : Dev nD) (t : Fin cfg1.N) (y : S512x4096.Idx) (k : S4096x4096.Idx)
    (hk0 : (k 0).val = win1_3.index t (0 : Fin 2) * 512 + 1 * (y 0).val) (hk1 : (k 1).val = (y 1).val) :
    (iblk1 V c 0 t : Vec Ideal S512x4096 .f32) y = (V c main_arg1 : Vec Ideal S4096x4096 .f32) k := by
  obtain ⟨e0, e1, -, -, -, -, -, -⟩ := index_facts1 t
  unfold iblk1
  rw [View.read_apply]
  show V c main_arg1 _ = V c main_arg1 _
  congr 1
  funext a
  apply Fin.ext
  match a with
  | ⟨0, _⟩ => show win1_0.index t (0 : Fin 2) * 512 + 1 * (y 0).val = (k 0).val; omega
  | ⟨1, _⟩ => show win1_0.index t (1 : Fin 2) * 4096 + 1 * (y 1).val = (k 1).val; omega

/-- The support window's block at every point is the whole support array. -/
theorem iblk1_1_eq (c : Dev nD) (t : Fin cfg1.N) :
    (iblk1 V c 1 t : Vec Ideal S4096x128 .f32) = (V c main_call0_v1 : Vec Ideal S4096x128 .f32) := by
  obtain ⟨-, -, e2, e3, -, -, -, -⟩ := index_facts1 t
  funext y
  unfold iblk1
  rw [View.read_apply]
  show V c main_call0_v1 _ = V c main_call0_v1 _
  congr 1
  funext a
  apply Fin.ext
  match a with
  | ⟨0, _⟩ => show win1_1.index t (0 : Fin 2) * 4096 + 1 * (y 0).val = (y 0).val; omega
  | ⟨1, _⟩ => show win1_1.index t (1 : Fin 2) * 128 + 1 * (y 1).val = (y 1).val; omega

/-- The bias window's block at every point is the whole bias row. -/
theorem iblk1_2_eq (c : Dev nD) (t : Fin cfg1.N) :
    (iblk1 V c 2 t : Vec Ideal S1x128 .f32) = (V c main_call0_v0 : Vec Ideal S1x128 .f32) := by
  obtain ⟨-, -, -, -, e4, e5, -, -⟩ := index_facts1 t
  funext y
  unfold iblk1
  rw [View.read_apply]
  show V c main_call0_v0 _ = V c main_call0_v0 _
  congr 1
  funext a
  apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- What a point writes back is its band of the aggregate of the arrays as the region finds them. -/
theorem agg_flushed (c : Dev nD) (t : Fin cfg1.N) :
    (dat1 V c).flushed 3 t = ((cfg1.win 3).blk t).view.read (Elt Ideal) (aggRow (V c main_arg1) (V c main_call0_v1) (V c main_call0_v0)) := by
  show (cfg1.win 3).cut (grid1.coords t) ((dat1 V c).after 3 t) = _
  rw [after1_3]
  unfold out1_3
  rw [View.canon_unit_zero zero_offsets1]
  simp only [View.ld_unit_zero (S := S512x4096) zero_offsets1, View.ld_unit_zero (S := S4096x128) zero_offsets1,
    View.ld_unit_zero (S := S1x128) zero_offsets1]
  funext j
  exact agg_block (V c main_arg1) (V c main_call0_v1) (V c main_call0_v0) (iblk1 V c 0 t) (iblk1 V c 1 t) (iblk1 V c 2 t)
    (win1_3.index t (0 : Fin 2)) (win1_3.index t (1 : Fin 2))
    (index_facts1 t).2.2.2.2.2.2.1 (fun y k h0 h1 => iblk1_0_apply V c t y k h0 h1) (iblk1_1_eq V c t) (iblk1_2_eq V c t)
    j (((cfg1.win 3).blk t).view.emb j) rfl rfl

/-- An entry of the result array is in a point's block iff each coordinate is in the block's range. -/
theorem mem_blk1 (t : Fin cfg1.N) (i : S4096x128.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v0).slice (win1_3.rect t)).set ↔ _
  rw [View.set_slice_whole, Rect.mem_set_unit]
  exact Iff.rfl

/-- Row r of the result is in band r / 512: the 8 bands cover the array. -/
theorem cover1 (i : S4096x128.Idx) : ∃ t : Fin cfg1.N, (cfg1.win 3).flush t = true ∧ i ∈ ((cfg1.win 3).blk t).view.set := by
  have hi0 : (i 0).val < 4096 := (i 0).isLt
  have hi1 : (i 1).val < 128 := (i 1).isLt
  obtain ⟨t, ht⟩ := index_onto1 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 128 ≤ (i 1).val ∧ (i 1).val < win1_3.index t (1 : Fin 2) * 128 + 128; omega

/-- REGION 1's result: the result array ends holding adj · support + bias row, of the arrays as the region finds them. -/
theorem agg_val (c : Dev nD) : (Gen.dat1 (F := Ideal) V c).arrAt 3 cfg1.N = aggRow (V c main_arg1) (V c main_call0_v1) (V c main_call0_v0) :=
  (dat1 V c).arrAt_eq_of_cover 3 (aggRow (V c main_arg1) (V c main_call0_v1) (V c main_call0_v0)) (fun t _ => agg_flushed V c t) cover1

end Cert.KernelIdeal.Hand
end
-- ==== Proof.KValue.lean ====
/-
  The kernel program's result array as a value, over the extended reals: at the end of the run it holds the
  graph-convolution layer out = adj · (x · weight) + bias of the four arguments as launched. The run is a host reshape
  of the bias to a [1,128] row, region 0 (the support) and region 1 (the aggregate); the contents at each boundary are
  read back through the two regions' values and the one host operation to the launch memory.
-/
import proofs.«117604_g2000604348336631_pallaspilot1_43_2_alg».proof.Proof.KValue0
import proofs.«117604_g2000604348336631_pallaspilot1_43_2_alg».proof.Proof.KValue1
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The one host operation writes only the bias row: every other buffer enters region 0 as launched. -/
theorem V1_of_ne (c : Dev nD) (b : Ref sig .tc) (hb : b ≠ main_call0_v0) :
    V1 m ρ c b = m ((c.tc : Thread nD τ).loc b) := by
  show StableHlo.after hostOps0 (W0 m ρ c) (Proc.devRef .tc b) = _
  simp only [hostOps0, StableHlo.after_cons, StableHlo.after_nil]
  rw [StableHlo.reshape_result_ne (h := hb)]

/-- The bias row is the bias reshaped [128] → [1,128]. -/
theorem V1_bias_row (c : Dev nD) :
    (V1 m ρ c main_call0_v0 : Vec Ideal S1x128 .f32)
      = shapeCast S1x128 (m ((c.tc : Thread nD τ).loc main_arg3) : Vec Ideal S128 .f32) shapeCasts_S128_S1x128 := by
  show StableHlo.after hostOps0 (W0 m ρ c) (Proc.devRef .tc main_call0_v0) = _
  after_results
  rfl

/-- The reshaped bias at (0, q) is the bias at q: the same row-major position. -/
theorem bias_row_apply (b : Vec Ideal S128 .f32) (q : Fin 128) :
    shapeCast S1x128 b shapeCasts_S128_S1x128 (ix2 (0 : Fin 1) q) = b (ix1 q) := by
  refine shapeCast_apply _ _ _ (ix1 q) ?_
  rw [Shape.rowMajor_val_one, Shape.rowMajor_val_two]
  show q.val = 0 * 128 + q.val
  omega

/-- THE RESULT ARRAY at the end of the run is the layer of the four arguments as launched: region 1 leaves
    adj · support + bias row of what it finds; it finds adj as launched (neither the host operation nor region 0 writes
    it), the support array at what region 0 left — x · weight of x and weight as launched —, and the bias row at the
    host's reshape of the bias, whose entry (0, q) is the bias's entry q. -/
theorem out_val (c : Dev nD) :
    Gen.W3 (F := Ideal) m ρ c (Proc.devRef .tc main_v0)
      = Cert.Spec.out (m ((c.tc : Thread nD τ).loc main_arg0)) (m ((c.tc : Thread nD τ).loc main_arg1))
          (m ((c.tc : Thread nD τ).loc main_arg2)) (m ((c.tc : Thread nD τ).loc main_arg3)) := by
  have hadj : V2 m ρ c main_arg1 = m ((c.tc : Thread nD τ).loc main_arg1) :=
    (W2_of_ne m ρ c main_arg1 (by decide)).trans (V1_of_ne m ρ c main_arg1 (by decide))
  have hsup : V2 m ρ c main_call0_v1
      = Cert.Spec.sup (m ((c.tc : Thread nD τ).loc main_arg0)) (m ((c.tc : Thread nD τ).loc main_arg2)) := by
    refine (W2_arr m ρ c 2).trans ((sup_val (V1 m ρ) c).trans ?_)
    rw [V1_of_ne m ρ c main_arg0 (by decide), V1_of_ne m ρ c main_arg2 (by decide)]
  have hrow : V2 m ρ c main_call0_v0
      = shapeCast S1x128 (m ((c.tc : Thread nD τ).loc main_arg3) : Vec Ideal S128 .f32) shapeCasts_S128_S1x128 :=
    (W2_of_ne m ρ c main_call0_v0 (by decide)).trans (V1_bias_row m ρ c)
  refine (W3_arr m ρ c 3).trans ((agg_val (V2 m ρ) c).trans ?_)
  rw [hadj, hsup, hrow]
  funext i
  unfold aggRow aggRowAt Cert.Spec.out Cert.Spec.agg Cert.Spec.aggAt
  exact congrArg₂ (· + ·) rfl (bias_row_apply _ (i 1))

end Cert.KernelIdeal.Hand
end
-- ==== Proof.RRegion0.lean ====
/-
  Region 0 of the reference (support = x · weight, one band of 512 rows per grid point), at any contents V of the
  core's buffers when the region is entered: what each window's block is at a point, what the body leaves in the
  output block (the matrix product of the band of x with the whole weight), the body's triple, and the proof data
  of the pipeline with the body obligation at every point.
-/
import proofs.«117604_g2000604348336631_pallaspilot1_43_2_alg».proof.Proof.Gen.ReferenceIdeal.Launch
import proofs.«117604_g2000604348336631_pallaspilot1_43_2_alg».proof.Proof.Gen.ReferenceIdeal.Skeleton
import proofs.«117604_g2000604348336631_pallaspilot1_43_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every statement below holds at any such contents
variable (V : (c : Dev nD) → (b : Ref sig .tc) → Buf (Elt F) ((c : Thread nD τ).loc b))

/-! ## The windows' blocks -/

/-- Window w's block at grid point t: the part of its array (at the entry contents) that the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window is fetched at every point: whatever proof data has the entry contents as its array and leaves an
    input block in place, its staging buffer holds the point's block of x before the body. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's block index never moves (it is the whole array, fetched once): its staging buffer holds
    that block before the body at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The three whole-block rectangles the body loads and stores through -/

abbrev r0_0 : Rect S512x256 := Rect.unit (s := S512x256) ![0, 0] S512x256.size inb_S512x256_S512x256_0_0
abbrev r0_1 : Rect S256x128 := Rect.unit (s := S256x128) ![0, 0] S256x128.size inb_S256x128_S256x128_0_0
abbrev r0_2 : Rect S512x128 := Rect.unit (s := S512x128) ![0, 0] S512x128.size inb_S512x128_S512x128_0_0

/-! ## What the body leaves in each output window's buffer -/

/-- The output block after the body: its one store, of the product of the x block with the weight block, over the
    whole block. -/
def out0_2 (x0 : Vec F S512x256 .f32) (x1 : Vec F S256x128 .f32) : Vec F S512x128 .f32 :=
  View.canon [⟨r0_2, k0_pay1 (View.ld x0 r0_0) (View.ld x1 r0_1)⟩]

/-- That one store covers the whole block. -/
theorem cover0_2 (p0 : Vec F S512x128 .f32) (y : S512x128.Idx) :
    ∃ pc ∈ ([⟨r0_2, p0⟩] : List (View.Piece (Elt F) S512x128 .f32)), y ∈ pc.1.set :=
  View.cover_of_tiled [⟨r0_2, p0⟩] S512x128.size (by rfl) y

/-! ## The body's triple -/

set_option maxHeartbeats 1000000 in
/-- The body's triple: from the two input blocks at x0 and x1 and the output block at anything, the body ends with
    the inputs as they were and the output block at out0_2 x0 x1 (it loads both inputs whole, loads the output block
    without using it, and stores the product whole). -/
theorem sound_kernel0 (c : Dev nD) (E : Set ℕ) (i : grid0.Coords) (arg1 : Memref sig .tc .vmem S512x256 .f32) (harg1 : arg1.IsWhole) (arg2 : Memref sig .tc .vmem S256x128 .f32) (harg2 : arg2.IsWhole) (arg3 : Memref sig .tc .vmem S512x128 .f32) (harg3 : arg3.IsWhole)
    (x0 : Vec F S512x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_support_kernel i arg1 harg1 arg2 harg2 arg3 harg3) K := by
  simp only [cc0_support_kernel_eq_skeleton]; unfold cc0_support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of region 0 on core c: the arrays at the entry contents; after the body at point t each input's
    buffer at its block and the output's at the product of the two input blocks; the invariant is the scoped buffers
    no window stages at anything and the generator register at some state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block before the body at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t: the invariant, the core owing nothing, each window's buffer at its contents, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RRuns1.lean ====
/-
  Region 1 of the reference, one grid point at a time: the body of the aggregate kernel at coordinates (i, k) resets
  the scratch block when k = 0, adds the product of the adj block with the support block into it, and when k = 7
  stores the scratch plus the bias row into the output block. Three cases of its two conditionals occur on the
  8 × 8 grid (k = 0; 0 < k < 7; k = 7); for each, what the body leaves in the scratch and in the output block as
  a function of what it finds, and the body's triple.
-/
import proofs.«117604_g2000604348336631_pallaspilot1_43_2_alg».proof.Proof.RRegion0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, in closed form over the grid -/

/-- The first conditional's test: the column-band coordinate is 0. -/
abbrev cond1_0 (i : grid1.Coords) : Prop :=
  (Scalar.cmpi .ne (Scalar.extui (Scalar.cmpi .eq (BitVec.ofNat 32 (i 1).val) 0#32)) 0#32) = 1#1
/-- It holds at the points t with t % 8 = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's test: the column-band coordinate is 7. -/
abbrev cond1_1 (i : grid1.Coords) : Prop := k1_cond2 i = 1#1
/-- It holds at the points t with t % 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last column band the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last column band it is live. -/
theorem liveAt1_3 : ∀ t : Fin cfg1.N, cond1_1 (grid1.coords t) → cfg1.idle 3 (grid1.coords t) = false := by decide +kernel

/-! ## What one point leaves -/

/-- The scratch after a point that starts a row band: zero plus the band's product. -/
def accA (x0 : Vec F S512x512 .f32) (x1 : Vec F S512x128 .f32) : Vec F S512x128 .f32 :=
  k1_pay2 (k1_pay1 (F := F)) x0 x1

/-- The scratch after a later point: what the point before left plus this band's product. -/
def accB (xs : Vec F S512x128 .f32) (x0 : Vec F S512x512 .f32) (x1 : Vec F S512x128 .f32) : Vec F S512x128 .f32 :=
  k1_pay2 xs x0 x1

/-- The output block at a point that ends a row band: the total plus the bias row. -/
def outC (a : Vec F S512x128 .f32) (x2 : Vec F S1x128 .f32) : Vec F S512x128 .f32 :=
  k1_pay3 a x2

theorem accA_eq (x0 : Vec F S512x512 .f32) (x1 : Vec F S512x128 .f32) : accA x0 x1 = k1_pay2 (k1_pay1 (F := F)) x0 x1 := rfl
theorem accB_eq (xs : Vec F S512x128 .f32) (x0 : Vec F S512x512 .f32) (x1 : Vec F S512x128 .f32) : accB xs x0 x1 = k1_pay2 xs x0 x1 := rfl
theorem outC_eq (a : Vec F S512x128 .f32) (x2 : Vec F S1x128 .f32) : outC a x2 = k1_pay3 a x2 := rfl

/-! ## The body's triple, case by case -/

/-- The two zero offsets of a whole-block rectangle, as the constant function. -/
theorem run1_hz : (![0, 0] : Fin 2 → ℕ) = fun _ => 0 := funext fun a => by fin_cases a <;> rfl

/-- Stores into a 512 × 128 block the latest of which is over the whole block cover the block. -/
theorem run1_cover (p0 : Vec F S512x128 .f32) (L : List (View.Piece (Elt F) S512x128 .f32)) (y : S512x128.Idx) :
    ∃ pc ∈ ((⟨Rect.unit (s := S512x128) ![0, 0] S512x128.size inb_S512x128_S512x128_0_0, p0⟩ : View.Piece (Elt F) S512x128 .f32) :: L), y ∈ pc.1.set :=
  ⟨_, List.mem_cons_self .., View.mem_set_unit_zero run1_hz inb_S512x128_S512x128_0_0 y⟩

set_option maxHeartbeats 1000000 in
/-- A point that starts a row band (k = 0): the scratch, found at anything, is left at accA of the two blocks;
    the bias block and the output block are not touched. -/
theorem run1_A (c : Dev nD) (E : Set ℕ) (i : grid1.Coords) (arg2 : Memref sig .tc .vmem S512x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole)
    (hc0 : cond1_0 i) (hc1 : ¬cond1_1 i)
    (x0 : Vec F S512x512 .f32) (x1 : Vec F S512x128 .f32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1 ∗ owns (c : Thread nD τ) arg6 fullShare (accA x0 x1)) -∗ K ⟨⟩))
      ⊢ wp frame (wpE (defs₀ (F := F)) Variants.none c none) E (cc1_aggregate_kernel i arg2 harg2 arg3 harg3 arg4 harg4 arg5 harg5 arg6 harg6) K := by
  simp only [cc1_aggregate_kernel_eq_skeleton]; unfold cc1_aggregate_kernel_skel
  unfold owns
  iintro ⟨⟨%f0, %hf0, H0⟩, ⟨%f1, %hf1, H1⟩, ⟨%ds, %fs, -, HS⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  -- the reset store then the update store, both over the whole block: the scratch reads as the later payload,
  -- whose first operand is the load of what the reset store left (the zero block); each other load reads a whole buffer
  sl_unfold_words
  rw [View.read_writes_eq_canon _ _ _ (run1_cover _ _),
    View.canon_cons_unit_zero run1_hz, View.readCov_unit_zero _ run1_hz]
  unfold accA
  simp only [View.readAt_eq_ld, View.ld_unit_zero (S := S512x128) run1_hz, View.ld_unit_zero (S := S512x512) run1_hz]

set_option maxHeartbeats 1000000 in
/-- A point in the middle of a row band (0 < k < 7): the scratch, found at xs, is left at accB xs of the two blocks. -/
theorem run1_B (c : Dev nD) (E : Set ℕ) (i : grid1.Coords) (arg2 : Memref sig .tc .vmem S512x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole)
    (hc0 : ¬cond1_0 i) (hc1 : ¬cond1_1 i)
    (x0 : Vec F S512x512 .f32) (x1 : Vec F S512x128 .f32) (xs : Vec F S512x128 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1 ∗ owns (c : Thread nD τ) arg6 fullShare (accB xs x0 x1)) -∗ K ⟨⟩))
      ⊢ wp frame (wpE (defs₀ (F := F)) Variants.none c none) E (cc1_aggregate_kernel i arg2 harg2 arg3 harg3 arg4 harg4 arg5 harg5 arg6 harg6) K := by
  simp only [cc1_aggregate_kernel_eq_skeleton]; unfold cc1_aggregate_kernel_skel
  unfold owns
  iintro ⟨⟨%f0, %hf0, H0⟩, ⟨%f1, %hf1, H1⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  -- the one store covers the block, so the scratch reads as its payload; each load reads a whole buffer
  rw [View.read_writes_eq_canon _ _ _ (run1_cover _ _),
    View.canon_unit_zero run1_hz]
  unfold accB
  simp only [View.readAt_eq_ld, View.ld_unit_zero (S := S512x128) run1_hz, View.ld_unit_zero (S := S512x512) run1_hz]

set_option maxHeartbeats 1000000 in
/-- A point that ends a row band (k = 7): the scratch is left at accB xs of the two blocks and the output block,
    found at anything, at outC of that and the bias block. -/
theorem run1_C (c : Dev nD) (E : Set ℕ) (i : grid1.Coords) (arg2 : Memref sig .tc .vmem S512x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole)
    (hc0 : ¬cond1_0 i) (hc1 : cond1_1 i)
    (x0 : Vec F S512x512 .f32) (x1 : Vec F S512x128 .f32) (x2 : Vec F S1x128 .f32) (xs : Vec F S512x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (outC (accB xs x0 x1) x2) ∗ owns (c : Thread nD τ) arg6 fullShare (accB xs x0 x1)) -∗ K ⟨⟩))
      ⊢ wp frame (wpE (defs₀ (F := F)) Variants.none c none) E (cc1_aggregate_kernel i arg2 harg2 arg3 harg3 arg4 harg4 arg5 harg5 arg6 harg6) K := by
  simp only [cc1_aggregate_kernel_eq_skeleton]; unfold cc1_aggregate_kernel_skel
  unfold owns
  iintro ⟨⟨%f0, %hf0, H0⟩, ⟨%f1, %hf1, H1⟩, ⟨%f2, %hf2, H2⟩, ⟨%d5, %f5, -, H5⟩, ⟨%fs, %hfs, HS⟩, Hk⟩
  subst hf0 hf1 hf2 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    -- the output block's one store covers it; its first operand is the load of what the update store left in the scratch
    sl_unfold_words
    rw [View.read_writes_eq_canon _ _ _ (run1_cover _ _),
      View.canon_unit_zero run1_hz, View.readCov_unit_zero _ run1_hz]
    unfold outC accB
    simp only [View.readAt_eq_ld, View.ld_unit_zero (S := S512x128) run1_hz, View.ld_unit_zero (S := S512x512) run1_hz,
      View.ld_unit_zero (S := S1x128) run1_hz]
  iexists _; isplitr
  swap; · iexact HS
  ipureintro
  -- the scratch: one covering store, as in the middle of a row band
  sl_unfold_words
  rw [View.read_writes_eq_canon _ _ _ (run1_cover _ _),
    View.canon_unit_zero run1_hz]
  unfold accB
  simp only [View.readAt_eq_ld, View.ld_unit_zero (S := S512x128) run1_hz, View.ld_unit_zero (S := S512x512) run1_hz]

end Cert.ReferenceIdeal.Hand

end
-- ==== Proof.RRegion1.lean ====
/-
  Region 1 of the reference (out = adj · support + bias, accumulated over 8 column bands of adj): the grid has
  64 points, point t working on row band t / 8 and column band t % 8. A scratch block carries the running total
  from one point to the next: it is reset to zero and given the first band's product at a point with t % 8 = 0,
  one more band's product is added at every later point, and at a point with t % 8 = 7 the total plus the bias
  row is stored into the output block, which is written back there and only there.
-/
import proofs.«117604_g2000604348336631_pallaspilot1_43_2_alg».proof.Proof.RRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The running total -/

/-- The running total in the scratch after point n. -/
def accAt (c : Dev nD) : (n : ℕ) → n < cfg1.N → Vec F S512x128 .f32
  | 0, hn => accA (iblk1 V c 0 ⟨0, hn⟩) (iblk1 V c 1 ⟨0, hn⟩)
  | n + 1, hn =>
    if (n + 1) % 8 = 0 then accA (iblk1 V c 0 ⟨n + 1, hn⟩) (iblk1 V c 1 ⟨n + 1, hn⟩)
    else accB (accAt c n (Nat.lt_of_succ_lt hn)) (iblk1 V c 0 ⟨n + 1, hn⟩) (iblk1 V c 1 ⟨n + 1, hn⟩)

/-- At a point that starts a row band the total is that band's product alone. -/
theorem accAt_first (c : Dev nD) (t : Fin cfg1.N) (h : t.val % 8 = 0) :
    accAt V c t.val t.isLt = accA (iblk1 V c 0 t) (iblk1 V c 1 t) := by
  obtain ⟨n, hn⟩ := t
  cases n with
  | zero => exact rfl
  | succ n => exact (if_pos h).trans rfl

/-- At any other point it is the total of the point before plus this band's product. -/
theorem accAt_next (c : Dev nD) (t : Fin cfg1.N) (h : t.val % 8 ≠ 0) :
    accAt V c t.val t.isLt
      = accB (accAt V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact (if_neg h).trans rfl

/-! ## The region's invariant and proof data -/

/-- The scratch block, whole. -/
abbrev scM : Memref sig .tc .vmem S512x128 .f32 := Memref.whole cc1_scratch0

/-- The invariant before position n: before the first point the scoped buffers no window of this region stages
    (region 0's five staging buffers and the scratch) at anything and the generator register at some state;
    afterwards the same with the scratch at the running total of the point before. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM fullShare (accAt V c n hn)) ∗ (∃ r, prngReg c r))

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outC (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = outC (accAt V c t.val t.isLt) (iblk1 V c 2 t) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

/-! ## The invariant, position by position -/

theorem PhiS_zero (c : Dev nD) (n : ℕ) (h : n ≤ cfg1.N) (hz : n = 0) : PhiS V c n h = Pipeline.ΦA spec1 c := by
  subst hz; rfl

/-- After point n (before point n + 1): the scratch at that point's running total. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM fullShare (accAt V c n hn)) ∗ (∃ r, prngReg c r)) := rfl

/-- Before a point that is not the first: the scratch at the running total of the point before. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM fullShare (accAt V c (n - 1) (by omega))) ∗ (∃ r, prngReg c r)) := by
  cases n with
  | zero => exact absurd rfl hz
  | succ n => rfl

/-- The invariant at a point's start, restated at the point's number. -/
theorem PhiS_castSucc (c : Dev nD) (t : Fin cfg1.N) :
    (dat1 V c).Φ t.castSucc = PhiS V c t.val (Nat.le_of_lt t.isLt) := by
  dsimp only [dat1]; simp only [Fin.coe_castSucc]

/-- The invariant before the first point with the scratch as a block owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ d, owns (c : Thread nD τ) scM fullShare d)) ∗ (∃ r, prngReg c r)) := by
  unfold Pipeline.ΦA; rw [scopedRest1_eq]; simp only [scM, owns_whole]; try rfl

/-! ## What the inputs' buffers hold before the body -/

/-- The adj window is fetched at every point: its buffer holds the point's block. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- So is the support window. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- The bias window's block index never moves: its buffer, fetched once, holds that block at every point. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- The inputs are live at every point: the body leaves each at its block. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]

/-! ## The body obligation, at a generic point -/

/-- What the body is called with at point t: the invariant, the core owing nothing, each window's buffer at what it holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks. By the point's column band t % 8: at 0 the scratch
    (out of the launch's invariant at anything at the very first point, else at the total of the point before, which
    is forgotten) is left at the band's product alone; strictly between 0 and 7 the scratch, at the total of the point
    before, is left at that plus the band's product; at 7 the same, and the output block is left at the total plus
    the bias row. Away from 7 the output window is idle and its buffer is handed back as found. The other scoped
    buffers, the generator register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 64 := lt_of_lt_of_eq t.isLt (show cfg1.N = 64 from N_1)
  by_cases h0 : t.val % 8 = 0
  · have h7 : ¬t.val % 8 = 7 := by omega
    rw [Dat.leavesExact_idle (dat1 V c) 3 t (idleAt1_3 t (fun h => h7 ((hcond1_1 t).mp h))) (noFlush1_3 t (fun h => h7 ((hcond1_1 t).mp h)))]
    rw [accAt_first V c t h0]
    by_cases hz : t.val = 0
    · rw [PhiS_castSucc V c t, PhiS_zero V c _ _ hz, PhiA1_eq]
      iintro ⟨⟨⟨Ha, Hb, Hc, Hd, He, HS⟩, Hg⟩, Ho, ⟨%d0, H0⟩, ⟨%d1, H1⟩, ⟨%d2, H2⟩, ⟨%d3, H3⟩⟩
      iapply (run1_A c Set.univ (grid1.coords t) _ _ _ _ _ _ _ _ _ _ ((hcond1_0 t).mpr h0) (fun h => h7 ((hcond1_1 t).mp h)) (iblk1 V c 0 t) (iblk1 V c 1 t) _)
      isplitl [H0]; · iexact H0
      isplitl [H1]; · iexact H1
      isplitl [HS]; · iexact HS
      iintro ⟨H0, H1, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Ha, Hb, Hc, Hd, He, HS⟩, Hg⟩, Ho, ⟨%d0, H0⟩, ⟨%d1, H1⟩, ⟨%d2, H2⟩, ⟨%d3, H3⟩⟩
      iapply (run1_A c Set.univ (grid1.coords t) _ _ _ _ _ _ _ _ _ _ ((hcond1_0 t).mpr h0) (fun h => h7 ((hcond1_1 t).mp h)) (iblk1 V c 0 t) (iblk1 V c 1 t) _)
      isplitl [H0]; · iexact H0
      isplitl [H1]; · iexact H1
      isplitl [HS]; · iexists _; iexact HS
      iintro ⟨H0, H1, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    rw [accAt_next V c t h0]
    rw [PhiS_castSucc V c t, PhiS_pos V c _ _ hz]
    by_cases h7 : t.val % 8 = 7
    · rw [show (dat1 V c).leavesExact 3 t = owns (c : Thread nD τ) (st1_3 t) fullShare ((dat1 V c).after 3 t) from by
        unfold Dat.leavesExact; rw [liveAt1_3 t ((hcond1_1 t).mpr h7)], after1_3, accAt_next V c t h0]
      iintro ⟨⟨⟨Ha, Hb, Hc, Hd, He, HS⟩, Hg⟩, Ho, ⟨%d0, H0⟩, ⟨%d1, H1⟩, ⟨%d2, H2⟩, ⟨%d3, H3⟩⟩
      iapply (run1_C c Set.univ (grid1.coords t) _ _ _ _ _ _ _ _ _ _ (fun h => h0 ((hcond1_0 t).mp h)) ((hcond1_1 t).mpr h7) (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h7 ((hcond1_1 t).mp h))) (noFlush1_3 t (fun h => h7 ((hcond1_1 t).mp h)))]
      iintro ⟨⟨⟨Ha, Hb, Hc, Hd, He, HS⟩, Hg⟩, Ho, ⟨%d0, H0⟩, ⟨%d1, H1⟩, ⟨%d2, H2⟩, ⟨%d3, H3⟩⟩
      iapply (run1_B c Set.univ (grid1.coords t) _ _ _ _ _ _ _ _ _ _ (fun h => h0 ((hcond1_0 t).mp h)) (fun h => h7 ((hcond1_1 t).mp h)) (iblk1 V c 0 t) (iblk1 V c 1 t) _ _)
      isplitl [H0]; · iexact H0
      isplitl [H1]; · iexact H1
      isplitl [HS]; · iexact HS
      iintro ⟨H0, H1, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      iexists _; iexact H3

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back at anything. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨Ha, Hb, Hc, Hd, He, HS⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS
  iexact Hg

end Cert.ReferenceIdeal.Hand

end
-- ==== Proof.RRun.lean ====
/-
  The reference's whole run: the contents of the core's buffers at each boundary between @main's items (the launch
  memory, then the host operations' results, then what each region's write-backs leave), every pipeline's proof data
  at its region's entry contents, each region as a segment entered from one boundary's contents and left at the
  next's, and the run itself: it terminates without a fault, the result array ends at the last boundary's
  contents and the four argument arrays end as launched.
-/
import proofs.«117604_g2000604348336631_pallaspilot1_43_2_alg».proof.Proof.RRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Entailment is transitive. -/
theorem entails_trans' {P Q R : sProp 𝕄} (h1 : P ⊢ Q) (h2 : Q ⊢ R) : P ⊢ R := h1.trans h2

variable (m : (ℓ : Loc nD τ sig) → Buf (Elt F) ℓ) (ρ : Dev nD → PrngReg)

/-! # @main's items from the launch to the return

## The buffer contents at each boundary between two items -/

/-- Core c's buffers at launch. -/
abbrev W0 : Dev nD → Valuation τ sig (Elt F) := fun c b => (s₀ m ρ).mem ((c : Dev nD), b)
/-- After the seventeen host operations (the four paddings): what region 0 is entered from. -/
abbrev W1 : Dev nD → Valuation τ sig (Elt F) := fun c => StableHlo.after hostOps0 (W0 m ρ c)
/-- The same, buffer by buffer. -/
abbrev V1 : (c : Dev nD) → (b : Ref sig .tc) → Buf (Elt F) ((c : Thread nD τ).loc b) := fun c b => W1 m ρ c b
/-- At region 0's exit: each of its windows' arrays at what the write-backs of all 8 points leave (an input as
    entered, the support array overwritten block by block), every other buffer as entered. What region 1 is entered from. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, buffer by buffer. -/
abbrev V2 : (c : Dev nD) → (b : Ref sig .tc) → Buf (Elt F) ((c : Thread nD τ).loc b) := fun c b => W2 m ρ c b
/-- At region 0's exit each of its windows' arrays holds what the write-backs leave, and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: each of its windows' arrays at what the write-backs of all 64 points leave (an input as
    entered, the result array overwritten block by block at the points that end a row band), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, buffer by buffer. -/
abbrev V3 : (c : Dev nD) → (b : Ref sig .tc) → Buf (Elt F) ((c : Thread nD τ).loc b) := fun c b => W3 m ρ c b
/-- At region 1's exit each of its windows' arrays holds what the write-backs leave, and every other buffer what it
    held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: the host operations write only their own result buffers, and neither
    region has an argument among its windows' arrays -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## Every region's proof data, and what a core holds between two items -/

/-- No region has a prefetched table. -/
abbrev adm : (p : Fin 2) → (pcfgs (F := F) p).Adm := fun p => (cfgs p).toPCfg_adm
/-- Each region's proof data, at the contents that region is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What a core holds beside its buffers between two items: its generator register at some state, and that it owes
    no other core anything. -/
abbrev R (c : Dev nD) : sProp 𝕄 := iprop((∃ r, prngReg c r) ∗ ∃ W, owes (c : Thread nD τ) (0 : CellTallies nD τ sig Unit) W)
/-- A stretch of host operations as an item: entered with every unscoped buffer at the contents W, left with them
    at W after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped buffer of the core is among those held between two items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end: every unscoped buffer at the last boundary's contents, the generator register at
    some state. -/
abbrev Tₙ (c : Dev nD) : sProp 𝕄 := iprop(StableHlo.held (c : Thread nD τ) (Pipeline.ucRefs τ sig) (W3 m ρ c) ∗ ∃ r, prngReg c r)

/-! ## The two regions as items -/

set_option backward.isDefEq.respectTransparency.types false in
/-- Region 0 (the support kernel): entered with every unscoped buffer at the contents after the host operations, left
    with them at region 0's exit contents. Its windows' arrays are taken out of the unscoped buffers at entry and put
    back at what the write-backs leave; the generator register passes through the region's invariant; nothing is owed
    and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (the aggregate kernel): entered with every unscoped buffer at region 0's exit contents, left with them
    at the last boundary's contents. As region 0, except that its invariant carries the scratch block at the running
    total: it starts from the scoped buffers at anything and ends by forgetting what the scratch holds. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine entails_trans' ?_ (hin1 (V2 m ρ) c)
    unfold Pipeline.ΦA
    iintro ⟨Hp, -, Hr⟩
    isplitl [Hr]; · iexact Hr
    iexact Hp
  hout c := by
    refine entails_trans' (hout1 (V2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its three items, and the run -/

/-- @main's three items in order: the host operations, region 0, region 1. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is those three items run one after the other. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has the result array at the last boundary's contents and the argument arrays as launched. -/
theorem run : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.ReferenceIdeal.Hand

end
-- ==== Proof.LibScatterSet.lean ====
import Idealize.ShloMosaic.PureOps.ShapeOps
import Idealize.ShloMosaic.Lib.ValueIdx

/-!
  stablehlo.scatter whose body returns the update (x.at[...].set(upd)), read back element by element.

  When every update index j lands inside the operand at g j and g is injective, the scatter's result at g j
  is upd j, whatever the operand held there. Two instances: the window that is the whole rank-2 operand (an
  empty index vector, every update at its own index), and one row written at row 0 of a one-row operand.
-/

namespace Cert.LibScatterSet

open Idealize.ShloMosaic Idealize.ShloMosaic.ValueIdx

/-- The scatter's left fold over ANY duplicate-free list of update numbers, from any start r, read at g j: the
    update upd j when j's number is in the list, the start's element otherwise. Induction on the list; two
    different updates write at different places because g is injective. -/
theorem fold_set_apply {α : Type} {s si u : Shape} {w : Nat} (d : ScatterDims s si u) (idx : IVec si w) (upd : u.Idx → α)
    (g : u.Idx → s.Idx) (hg : ∀ j, d.resultIdx? j idx = some (g j)) (hinj : Function.Injective g) (j : u.Idx) :
    ∀ (l : List (Fin u.numel)) (r : s.Idx → α), l.Nodup →
      l.foldl (fun r n =>
          match d.resultIdx? (u.rowMajor.symm n) idx with
          | some i => fun i' => if i' = i then (fun (_ b : α) => b) (r i) (upd (u.rowMajor.symm n)) else r i'
          | none => r) r (g j)
        = if u.rowMajor j ∈ l then upd j else r (g j) := by
  intro l
  induction l with
  | nil => intro r _; simp
  | cons n l ih =>
    intro r hnd
    obtain ⟨hn, hl⟩ := List.nodup_cons.1 hnd
    rw [List.foldl_cons, ih _ hl]
    simp only [hg]
    by_cases hjn : u.rowMajor j = n
    · subst hjn
      rw [if_neg hn, Equiv.symm_apply_apply, if_pos rfl, if_pos List.mem_cons_self]
    · have hne : g j ≠ g (u.rowMajor.symm n) := fun h => hjn (by rw [hinj h, Equiv.apply_symm_apply])
      rw [if_neg hne]
      simp only [List.mem_cons, hjn, false_or]

/-- A scatter that SETS (its body returns the update), every update index j landing at g j with g injective:
    at g j the result is upd j. -/
theorem scatter_set_apply {α : Type} {s si u : Shape} {w : Nat} (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  unfold Host.scatter
  exact (fold_set_apply d idx upd g hg hinj j _ x (List.nodup_finRange _)).trans (if_pos (List.mem_finRange _))

/-- If on every operand axis the start plus the window coordinate of update index j is i's coordinate there, then j
    lands at i. The bounds hold because i's coordinates are inside the operand. -/
theorem resultIdx_of_coord {s si u : Shape} {w : Nat} (d : ScatterDims s si u) (j : u.Idx) (idx : IVec si w) (i : s.Idx)
    (h : ∀ a, d.start j idx a + (d.window j a : Int) = ((i a).val : Int)) : d.resultIdx? j idx = some i := by
  have hb : ∀ a, 0 ≤ d.start j idx a + (d.window j a : Int) ∧ d.start j idx a + (d.window j a : Int) < (s.size a : Int) := by
    intro a; rw [h a]; have := (i a).isLt; omega
  unfold ScatterDims.resultIdx?
  rw [dif_pos hb]
  congr 1; funext a; apply Fin.ext
  show (d.start j idx a + (d.window j a : Int)).toNat = (i a).val
  rw [h a]; omega

/-! ## The window that is the whole operand -/

section Whole

variable {A B w : Nat} (d : ScatterDims ⟨2, ![A, B]⟩ ⟨1, ![0]⟩ ⟨2, ![A, B]⟩)

/-- No operand axis is named by the (empty) map from the index vector: every start is 0. -/
theorem whole_start (hsd : d.scatterDimsToOperandDims = []) (j : (⟨2, ![A, B]⟩ : Shape).Idx) (idx : IVec ⟨1, ![0]⟩ w) (a : Fin 2) :
    d.start j idx a = 0 := by
  unfold ScatterDims.start
  exact dif_neg (by rw [hsd]; exact List.not_mem_nil)

/-- Both operand axes are window axes, in order: the window coordinate on an axis is the update index's. -/
theorem whole_window (huw : d.updateWindowDims = [0, 1]) (hiw : d.insertedWindowDims = []) (j : (⟨2, ![A, B]⟩ : Shape).Idx) :
    d.window j 0 = (j 0).val ∧ d.window j 1 = (j 1).val := by
  obtain ⟨uw, iw, sd, iv, wf⟩ := d
  simp only at huw hiw
  subst huw hiw
  unfold ScatterDims.window
  exact ⟨(dif_pos (show (0 : Fin 2) ∈ (List.finRange 2).filter (· ∉ ([] : List (Fin 2))) by decide)).trans rfl,
    (dif_pos (show (1 : Fin 2) ∈ (List.finRange 2).filter (· ∉ ([] : List (Fin 2))) by decide)).trans rfl⟩

/-- Every update index lands at itself. -/
theorem whole_resultIdx (huw : d.updateWindowDims = [0, 1]) (hiw : d.insertedWindowDims = []) (hsd : d.scatterDimsToOperandDims = [])
    (j : (⟨2, ![A, B]⟩ : Shape).Idx) (idx : IVec ⟨1, ![0]⟩ w) : d.resultIdx? j idx = some j := by
  obtain ⟨hw0, hw1⟩ := whole_window d huw hiw j
  refine resultIdx_of_coord d j idx j (Fin.forall_fin_two.2 ⟨?_, ?_⟩)
  · rw [whole_start d hsd, hw0, Int.zero_add]
  · rw [whole_start d hsd, hw1, Int.zero_add]

/-- zeros.at[:A, :B].set(upd) over an A×B operand is upd. -/
theorem scatter_whole {α : Type} (huw : d.updateWindowDims = [0, 1]) (hiw : d.insertedWindowDims = []) (hsd : d.scatterDimsToOperandDims = [])
    (hiv : d.indexVectorDim = 0) (x upd : (⟨2, ![A, B]⟩ : Shape).Idx → α) (idx : IVec ⟨1, ![0]⟩ w) :
    Host.scatter d (fun _ b => b) x idx upd = upd := by
  funext i
  exact scatter_set_apply d x idx upd id (fun j => whole_resultIdx d huw hiw hsd j idx) Function.injective_id i

end Whole

/-! ## One row written at row 0 of a one-row operand -/

section Row

variable {C : Nat} (d : ScatterDims ⟨2, ![1, C]⟩ ⟨1, ![1]⟩ ⟨1, ![C]⟩)

/-- The index vector has one component and it is 0: every start is 0 (on the axis the map names it is that component,
    on the other the map names nothing). -/
theorem row_start (idx : IVec ⟨1, ![1]⟩ 32) (hidx : idx (ix1 (0 : Fin 1)) = 0#32) (j : (⟨1, ![C]⟩ : Shape).Idx) (a : Fin 2) :
    d.start j idx a = 0 := by
  have hall : ∀ k : (⟨1, ![1]⟩ : Shape).Idx, idx k = 0#32 := fun k => by
    have hk : k = ix1 (0 : Fin 1) := (eq_ix1 k).trans (congrArg ix1 (Subsingleton.elim (α := Fin 1) _ _))
    rw [hk]; exact hidx
  unfold ScatterDims.start
  split
  · rw [hall]; rfl
  · rfl

/-- Operand axis 0 is inserted (window coordinate 0); axis 1 takes the update's one axis. -/
theorem row_window (huw : d.updateWindowDims = [0]) (hiw : d.insertedWindowDims = [0]) (j : (⟨1, ![C]⟩ : Shape).Idx) :
    d.window j 0 = 0 ∧ d.window j 1 = (j 0).val := by
  obtain ⟨uw, iw, sd, iv, wf⟩ := d
  simp only at huw hiw
  subst huw hiw
  unfold ScatterDims.window
  exact ⟨dif_neg (show (0 : Fin 2) ∉ (List.finRange 2).filter (· ∉ ([0] : List (Fin 2))) by decide),
    (dif_pos (show (1 : Fin 2) ∈ (List.finRange 2).filter (· ∉ ([0] : List (Fin 2))) by decide)).trans rfl⟩

/-- Update q lands at (0, q). -/
theorem row_resultIdx (huw : d.updateWindowDims = [0]) (hiw : d.insertedWindowDims = [0])
    (idx : IVec ⟨1, ![1]⟩ 32) (hidx : idx (ix1 (0 : Fin 1)) = 0#32) (j : (⟨1, ![C]⟩ : Shape).Idx) :
    d.resultIdx? j idx = some (ix2 (0 : Fin 1) (j 0)) := by
  obtain ⟨hw0, hw1⟩ := row_window d huw hiw j
  refine resultIdx_of_coord d j idx _ (Fin.forall_fin_two.2 ⟨?_, ?_⟩)
  · rw [row_start d idx hidx, hw0]; rfl
  · rw [row_start d idx hidx, hw1, Int.zero_add]

/-- zeros(1, C).at[0, :].set(upd) is upd as the one row. -/
theorem scatter_row0 {α : Type} (huw : d.updateWindowDims = [0]) (hiw : d.insertedWindowDims = [0]) (hsd : d.scatterDimsToOperandDims = [0])
    (hiv : d.indexVectorDim = 0) (x : (⟨2, ![1, C]⟩ : Shape).Idx → α) (idx : IVec ⟨1, ![1]⟩ 32) (hidx : idx (ix1 (0 : Fin 1)) = 0#32)
    (upd : (⟨1, ![C]⟩ : Shape).Idx → α) :
    Host.scatter d (fun _ b => b) x idx upd = fun i => upd (ix1 (i 1)) := by
  funext i
  let g : (⟨1, ![C]⟩ : Shape).Idx → (⟨2, ![1, C]⟩ : Shape).Idx := fun j => ix2 (0 : Fin 1) (j 0)
  have hinj : Function.Injective g := fun j j' h => by
    have h1 : j 0 = j' 0 := congrFun h 1
    exact (eq_ix1 j).trans ((congrArg ix1 h1).trans (eq_ix1 j').symm)
  have hi : i = g (ix1 (i 1)) :=
    (eq_ix2 i).trans (congrArg (fun a => ix2 a (i 1)) (Subsingleton.elim (α := Fin 1) (i 0) 0))
  exact (congrArg (Host.scatter d (fun _ b => b) x idx upd) hi).trans
    (scatter_set_apply d x idx upd g (fun j => row_resultIdx d huw hiw idx hidx j) hinj (ix1 (i 1)))

end Row

end Cert.LibScatterSet
-- ==== Proof.RHost.lean ====
import proofs.«117604_g2000604348336631_pallaspilot1_43_2_alg».proof.Proof.LibScatterSet
import proofs.«117604_g2000604348336631_pallaspilot1_43_2_alg».proof.Proof.Gen.ReferenceIdeal.Launch
import Idealize.ShloMosaic.Lib.StableHlo.Run
import Idealize.ShloMosaic.Lib.ValueIdx

/-!
  What the reference program's host operations leave in the four zero-padded arrays: each pad is empty, so the padded
  array is the argument itself (the bias as the one row of a 1×128 array). Each array's contents after the operations
  is the transport, along the buffer's type, of a scatter that sets over a broadcast zero. The scatter is never
  evaluated: the law "a set over the whole window (or over row 0) reads back as the update" is applied UNDER the
  transport (by congruence), and what remains is the transport of the argument, which is the argument.
-/

noncomputable section

namespace Cert.ReferenceIdeal.Hand

open Cert.ReferenceIdeal Cert.ReferenceIdeal.Gen Idealize.ShloMosaic Idealize.ShloMosaic.TcCoe Idealize.ShloMosaic.ValueIdx

variable {F : FTy → Type} [FloatOps F]

/-- The padded node features: zeros(4096, 256).at[:4096, :256].set(arg0) is arg0. -/
theorem host_v1 (V : Valuation τ sig (Elt F)) :
    StableHlo.after (hostOps0 (F := F)) V (Proc.devRef .tc main_call0_v1) = V (Proc.devRef .tc main_arg0) := by
  dsimp only [hostOps0]; after_results
  refine (congrArg _ (Cert.LibScatterSet.scatter_whole scatter_S4096x256_S0_S4096x256_01_n_n_0 rfl rfl rfl rfl _ _ _)).trans ?_
  rfl

/-- The padded adjacency: zeros(4096, 4096).at[:4096, :4096].set(arg1) is arg1. -/
theorem host_v3 (V : Valuation τ sig (Elt F)) :
    StableHlo.after (hostOps0 (F := F)) V (Proc.devRef .tc main_call0_v3) = V (Proc.devRef .tc main_arg1) := by
  dsimp only [hostOps0]; after_results
  refine (congrArg _ (Cert.LibScatterSet.scatter_whole scatter_S4096x4096_S0_S4096x4096_01_n_n_0 rfl rfl rfl rfl _ _ _)).trans ?_
  rfl

/-- The padded weights: zeros(256, 128).at[:256, :128].set(arg2) is arg2. -/
theorem host_v5 (V : Valuation τ sig (Elt F)) :
    StableHlo.after (hostOps0 (F := F)) V (Proc.devRef .tc main_call0_v5) = V (Proc.devRef .tc main_arg2) := by
  dsimp only [hostOps0]; after_results
  refine (congrArg _ (Cert.LibScatterSet.scatter_whole scatter_S256x128_S0_S256x128_01_n_n_0 rfl rfl rfl rfl _ _ _)).trans ?_
  rfl

/-- The padded bias: zeros(1, 128).at[0, :128].set(arg3) holds arg3 as its one row. The index vector is the
    broadcast of the constant 0, so its one component is 0. -/
theorem host_v8 (V : Valuation τ sig (Elt F)) :
    StableHlo.after (hostOps0 (F := F)) V (Proc.devRef .tc main_call0_v8)
      = fun i => V (Proc.devRef .tc main_arg3) (ValueIdx.ix1 (i 1)) := by
  dsimp only [hostOps0]; after_results
  refine (congrArg _ (Cert.LibScatterSet.scatter_row0 scatter_S1x128_S1_S128_0_0_0_0 rfl rfl rfl rfl _ _ ?_ _)).trans ?_
  · rfl
  · rfl

end Cert.ReferenceIdeal.Hand

end
-- ==== Proof.RVals.lean ====
import proofs.«117604_g2000604348336631_pallaspilot1_43_2_alg».proof.Proof.Gen.ReferenceIdeal.Skeleton
import proofs.«117604_g2000604348336631_pallaspilot1_43_2_alg».proof.Proof.LibMatmul
import Idealize.ShloMosaic.Lib.Pipeline.Value
import Idealize.ShloMosaic.Lib.ValueIdx
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-! ## The four stored values of the two-stage program, each read at one index -/

/-- Stage one stores the plain product of its two blocks: at `(p, q)` the sum over `k` of `x0 (p, k) * x1 (k, q)`. -/
theorem pay0_apply (x0 : Vec Ideal S512x256 .f32) (x1 : Vec Ideal S256x128 .f32) (p : Fin 512) (q : Fin 128) :
    k0_pay1 x0 x1 (ix2 p q) = ∑ k : Fin 256, x0 (ix2 p k) * x1 (ix2 k q) := by
  unfold k0_pay1
  simp only [shapeCast_self]
  exact Cert.LibMatmul.matmul_zero_ix2 _ rfl rfl rfl rfl rfl rfl _ _ _ _ _

/-- The accumulator's initial value is the zero word everywhere, the extended real `0`. -/
theorem pay1_apply (p : Fin 512) (q : Fin 128) : k1_pay1 (F := Ideal) (ix2 p q) = 0 := by
  unfold k1_pay1
  simp only [shapeCast_self]
  exact Ideal.ofBits_zero_f32

/-- One accumulation step: the accumulator plus the plain product of the two blocks. -/
theorem pay2_apply (xs : Vec Ideal S512x128 .f32) (x0 : Vec Ideal S512x512 .f32) (x1 : Vec Ideal S512x128 .f32)
    (p : Fin 512) (q : Fin 128) :
    k1_pay2 xs x0 x1 (ix2 p q) = xs (ix2 p q) + ∑ k : Fin 512, x0 (ix2 p k) * x1 (ix2 k q) := by
  unfold k1_pay2
  simp only [shapeCast_self]
  rw [addf_apply]
  exact congrArg (xs (ix2 p q) + ·) (Cert.LibMatmul.matmul_zero_ix2 _ rfl rfl rfl rfl rfl rfl _ _ _ _ _)

/-- The last step adds the row vector, broadcast along the rows: `a (p, q) + x2 (0, q)`. -/
theorem pay3_apply (a : Vec Ideal S512x128 .f32) (x2 : Vec Ideal S1x128 .f32) (p : Fin 512) (q : Fin 128) :
    k1_pay3 a x2 (ix2 p q) = a (ix2 p q) + x2 (ix2 (0 : Fin 1) q) := by
  unfold k1_pay3
  simp only [shapeCast_self]
  rw [addf_apply]
  refine congrArg (a (ix2 p q) + ·) (broadcastTo_apply _ _ _ _ fun ax => ?_)
  match ax with
  | ⟨0, _⟩ => rfl
  | ⟨1, _⟩ => rfl

end Cert.ReferenceIdeal.Hand
-- ==== Proof.RValue0.lean ====
import proofs.«117604_g2000604348336631_pallaspilot1_43_2_alg».proof.Proof.RRegion0
import proofs.«117604_g2000604348336631_pallaspilot1_43_2_alg».proof.Proof.Spec
import proofs.«117604_g2000604348336631_pallaspilot1_43_2_alg».proof.Proof.RVals
import Idealize.ShloMosaic.Lib.Pipeline.Value

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

-- the contents of the core's buffers when the region is entered, at the extended reals
variable (V : (c : Dev nD) → (b : Ref sig .tc) → Buf (Elt Ideal) ((c : Thread nD τ).loc b))

/-! ## The arrays and blocks, by their shapes -/

/-- The array of x (4096 rows of 256 features) and the weight (256 by 128), as the region finds them. -/
abbrev xarr (c : Dev nD) : Vec Ideal S4096x256 .f32 := V c main_call0_v1
abbrev warr (c : Dev nD) : Vec Ideal S256x128 .f32 := V c main_call0_v5
/-- The band of x and the weight block at grid point t. -/
abbrev xblk (c : Dev nD) (t : Fin cfg0.N) : Vec Ideal S512x256 .f32 := iblk0 V c 0 t
abbrev wblk (c : Dev nD) (t : Fin cfg0.N) : Vec Ideal S256x128 .f32 := iblk0 V c 1 t

/-- The zero offsets of a whole-block rectangle. -/
theorem zero_off : (![0, 0] : Fin 2 → Nat) = fun _ => 0 := funext fun a => by fin_cases a <;> rfl

/-- The output block after the body is the product of the two input blocks: its one store covers the block and both
    loads read their blocks whole. -/
theorem out0_2_eq (x0 : Vec Ideal S512x256 .f32) (x1 : Vec Ideal S256x128 .f32) : out0_2 x0 x1 = k0_pay1 x0 x1 := by
  unfold out0_2
  rw [View.canon_unit_zero zero_off]
  simp only [View.ld_unit_zero (S := S512x256) zero_off, View.ld_unit_zero (S := S256x128) zero_off]

/-- The index maps over the grid: at point t the x window and the output window are at band t, column block 0; the weight
    window is at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The band of x at point t, at (r, l), is x at row 512 t + r, column l. -/
theorem xblk_apply (c : Dev nD) (t : Fin cfg0.N) (y : S512x256.Idx) (k : S4096x256.Idx)
    (h0 : (k 0).val = 512 * t.val + (y 0).val) (h1 : (k 1).val = (y 1).val) : xblk V c t y = xarr V c k := by
  obtain ⟨e0, e1, -⟩ := idx_facts0 t
  show V c main_call0_v1 (((cfg0.win 0).blk t).view.emb y) = V c main_call0_v1 k
  refine congrArg _ (funext fun a => Fin.ext ?_)
  match a with
  | ⟨0, _⟩ => show win0_0.index t (0 : Fin 2) * 512 + 1 * (y 0).val = (k 0).val; omega
  | ⟨1, _⟩ => show win0_0.index t (1 : Fin 2) * 256 + 1 * (y 1).val = (k 1).val; omega

/-- The weight block at every point is the weight. -/
theorem wblk_apply (c : Dev nD) (t : Fin cfg0.N) (y : S256x128.Idx) : wblk V c t y = warr V c y := by
  obtain ⟨-, -, e2, e3, -⟩ := idx_facts0 t
  show V c main_call0_v5 (((cfg0.win 1).blk t).view.emb y) = V c main_call0_v5 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-! ## What each point writes back -/

/-- Point t writes back band t of the support array: entry (r, q) of the block is the product's sum over the 256
    features, the band of x read at row 512 t + r and the weight read whole. -/
theorem flushed0_eq (c : Dev nD) (t : Fin cfg0.N) :
    (dat0 V c).flushed 2 t
      = ((cfg0.win 2).blk t).view.read (Elt Ideal) (Cert.Spec.sup (xarr V c) (warr V c)) := by
  show (cfg0.win 2).cut (grid0.coords t) ((dat0 V c).after 2 t) = _
  rw [after0_2, out0_2_eq]
  obtain ⟨-, -, -, -, e4, e5⟩ := idx_facts0 t
  funext j
  obtain ⟨p, q, rfl⟩ : ∃ (p : Fin 512) (q : Fin 128), j = ix2 p q := ⟨j 0, j 1, eq_ix2 (n0 := 512) (n1 := 128) j⟩
  show k0_pay1 (xblk V c t) (wblk V c t) (ix2 p q)
    = Cert.Spec.sup (xarr V c) (warr V c) (((cfg0.win 2).blk t).view.emb (ix2 p q))
  rw [pay0_apply]
  show _ = ∑ l : Fin 256, xarr V c (ix2 ((((cfg0.win 2).blk t).view.emb (ix2 p q)) 0) l)
    * warr V c (ix2 l ((((cfg0.win 2).blk t).view.emb (ix2 p q)) 1))
  refine Finset.sum_congr rfl fun l _ => ?_
  rw [xblk_apply V c t (ix2 p l) (ix2 ((((cfg0.win 2).blk t).view.emb (ix2 p q)) 0) l)
      (by show win0_2.index t (0 : Fin 2) * 512 + 1 * p.val = 512 * t.val + p.val; omega) rfl,
    wblk_apply V c t (ix2 l q)]
  refine congrArg (xarr V c _ * warr V c ·) (funext fun a => Fin.ext ?_)
  match a with
  | ⟨0, _⟩ => rfl
  | ⟨1, _⟩ => show q.val = win0_2.index t (1 : Fin 2) * 128 + 1 * q.val; omega

/-! ## The bands tile the array -/

/-- An index of the support array is in point t's block iff each coordinate is in the block's range on its axis. -/
theorem mem_blk0 (t : Fin cfg0.N) (i : S4096x128.Idx) :
    i ∈ ((cfg0.win 2).blk t).view.set
      ↔ ∀ a : Fin 2, win0_2.index t a * S512x128.size a ≤ (i a).val
          ∧ (i a).val < win0_2.index t a * S512x128.size a + S512x128.size a := by
  show i ∈ ((View.whole main_call0_v9).slice (win0_2.rect t)).set ↔ _
  rw [View.set_slice_whole, Rect.mem_set_unit]
  exact Iff.rfl

/-- Row r is in the band of point r / 512, and every point writes its band back. -/
theorem cover0 (i : S4096x128.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 128 ≤ (i 1).val ∧ (i 1).val < win0_2.index t (1 : Fin 2) * 128 + 128
    omega

/-! ## The support array after the region -/

/-- After all eight points the output array holds support = x · weight of the arrays the region found. -/
theorem sup_val (c : Dev nD) :
    (dat0 (F := Ideal) V c).arrAt 2 cfg0.N = Cert.Spec.sup (V c main_call0_v1) (V c main_call0_v5) :=
  (dat0 V c).arrAt_eq_of_cover 2 (Cert.Spec.sup (xarr V c) (warr V c)) (fun t _ => flushed0_eq V c t) cover0

end Cert.ReferenceIdeal.Hand
-- ==== Proof.RValue1.lean ====
/-
  Region 1 of the reference read as a value: the output array after the region is the aggregate
  out[r, q] = (Σ_k adj[r, k] · support[k, q]) + bias[q]. The grid point t works on row band t / 8 and column band
  t % 8; the scratch block after point t holds, at (p, q), the running total of the bands 0 … t % 8 of row
  512 (t / 8) + p, each band's share being the sum over its 512 nodes; after the eighth band the running total is
  the sum over all 4096 nodes (a sum over the nodes is the sum over the bands of each band's sum), the bias row is
  added once, and the block is written back. The blocks of the points with t % 8 = 7 tile the array by rows.
-/
import proofs.«117604_g2000604348336631_pallaspilot1_43_2_alg».proof.Proof.RRegion1
import proofs.«117604_g2000604348336631_pallaspilot1_43_2_alg».proof.Proof.RVals
import proofs.«117604_g2000604348336631_pallaspilot1_43_2_alg».proof.Proof.Spec
import Idealize.ShloMosaic.Lib.Pipeline.Value
import Idealize.ShloMosaic.Lib.ValueIdx

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Where the windows' blocks sit -/

/-- The windows' index maps over the grid: at point t the adj window is block (t / 8, t % 8), the support window
    block (t % 8, 0), the bias window block (0, 0), the output window block (t / 8, 0). -/
theorem idx_maps1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- The three input blocks at point t, at their literal types. -/
abbrev adjBlk (c : Dev nD) (t : Fin cfg1.N) : Vec Ideal S512x512 .f32 := iblk1 V c 0 t
abbrev supBlk (c : Dev nD) (t : Fin cfg1.N) : Vec Ideal S512x128 .f32 := iblk1 V c 1 t
abbrev biasBlk (c : Dev nD) (t : Fin cfg1.N) : Vec Ideal S1x128 .f32 := iblk1 V c 2 t

/-- The three arrays the region reads, at their literal types. -/
abbrev adjArr (c : Dev nD) : FVec Ideal ⟨2, ![4096, 4096]⟩ .f32 := V c main_call0_v3
abbrev supArr (c : Dev nD) : FVec Ideal ⟨2, ![4096, 128]⟩ .f32 := V c main_call0_v9
abbrev biasArr (c : Dev nD) : FVec Ideal ⟨2, ![1, 128]⟩ .f32 := V c main_call0_v8

/-- The adj block at point t, at (p, k), is adj at (512 (t / 8) + p, 512 (t % 8) + k). -/
theorem adj_blk_apply (c : Dev nD) (t : Fin cfg1.N) (p k : Fin 512) (P K : Fin 4096)
    (hP : P.val = 512 * (t.val / 8) + p.val) (hK : K.val = 512 * (t.val % 8) + k.val) :
    adjBlk V c t (ix2 p k) = adjArr V c (ix2 P K) := by
  show V c main_call0_v3 (((cfg1.win 0).blk t).view.emb (ix2 p k)) = V c main_call0_v3 (ix2 P K)
  obtain ⟨e0, e1, -⟩ := idx_maps1 t
  congr 1
  funext a; apply Fin.ext
  match a with
  | ⟨0, _⟩ => show win1_0.index t (0 : Fin 2) * 512 + 1 * p.val = P.val; omega
  | ⟨1, _⟩ => show win1_0.index t (1 : Fin 2) * 512 + 1 * k.val = K.val; omega

/-- The support block at point t, at (k, q), is support at (512 (t % 8) + k, q). -/
theorem sup_blk_apply (c : Dev nD) (t : Fin cfg1.N) (k : Fin 512) (q : Fin 128) (K : Fin 4096)
    (hK : K.val = 512 * (t.val % 8) + k.val) :
    supBlk V c t (ix2 k q) = supArr V c (ix2 K q) := by
  show V c main_call0_v9 (((cfg1.win 1).blk t).view.emb (ix2 k q)) = V c main_call0_v9 (ix2 K q)
  obtain ⟨-, -, e0, e1, -⟩ := idx_maps1 t
  congr 1
  funext a; apply Fin.ext
  match a with
  | ⟨0, _⟩ => show win1_1.index t (0 : Fin 2) * 512 + 1 * k.val = K.val; omega
  | ⟨1, _⟩ => show win1_1.index t (1 : Fin 2) * 128 + 1 * q.val = q.val; omega

/-- The bias block at any point is the whole bias row. -/
theorem bias_blk_apply (c : Dev nD) (t : Fin cfg1.N) (q : Fin 128) :
    biasBlk V c t (ix2 (0 : Fin 1) q) = biasArr V c (ix2 (0 : Fin 1) q) := by
  show V c main_call0_v8 (((cfg1.win 2).blk t).view.emb (ix2 (0 : Fin 1) q)) = V c main_call0_v8 (ix2 (0 : Fin 1) q)
  obtain ⟨-, -, -, -, e0, e1, -⟩ := idx_maps1 t
  congr 1
  funext a; apply Fin.ext
  match a with
  | ⟨0, _⟩ => show win1_2.index t (0 : Fin 2) * 1 + 1 * (0 : Fin 1).val = (0 : Fin 1).val; omega
  | ⟨1, _⟩ => show win1_2.index t (1 : Fin 2) * 128 + 1 * q.val = q.val; omega

/-! ## The running total is the sum of the bands so far -/

/-- Band b's share of row r of adj against column q of s: the sum over the band's 512 nodes. -/
def bandSum (A : FVec Ideal ⟨2, ![4096, 4096]⟩ .f32) (S : FVec Ideal ⟨2, ![4096, 128]⟩ .f32) (r : Fin 4096) (q : Fin 128)
    (b : Fin 8) : EReal :=
  ∑ k : Fin 512, A (ix2 r (Cert.Spec.node b k)) * S (ix2 (Cert.Spec.node b k) q)

/-- The same over the naturals, read modulo 8. -/
def bandSumN (A : FVec Ideal ⟨2, ![4096, 4096]⟩ .f32) (S : FVec Ideal ⟨2, ![4096, 128]⟩ .f32) (r : Fin 4096) (q : Fin 128)
    (n : ℕ) : EReal :=
  bandSum A S r q ⟨n % 8, Nat.mod_lt _ (by norm_num)⟩

/-- It depends on n only through n % 8. -/
theorem bandSumN_congr (A : FVec Ideal ⟨2, ![4096, 4096]⟩ .f32) (S : FVec Ideal ⟨2, ![4096, 128]⟩ .f32) (r : Fin 4096) (q : Fin 128)
    {a b : ℕ} (h : a % 8 = b % 8) : bandSumN A S r q a = bandSumN A S r q b := by
  unfold bandSumN
  exact congrArg (bandSum A S r q) (Fin.ext h)

/-- The product of the two blocks at point t, at (p, q), is band t % 8's share of the row the block's row p is. -/
theorem band_prod (c : Dev nD) (t : Fin cfg1.N) (p : Fin 512) (q : Fin 128) (r : Fin 4096)
    (hr : r.val = 512 * (t.val / 8) + p.val) :
    ∑ k : Fin 512, adjBlk V c t (ix2 p k) * supBlk V c t (ix2 k q)
      = bandSumN (adjArr V c) (supArr V c) r q t.val := by
  unfold bandSumN bandSum
  refine Finset.sum_congr rfl fun k _ => ?_
  rw [adj_blk_apply V c t p k r (Cert.Spec.node ⟨t.val % 8, Nat.mod_lt _ (by norm_num)⟩ k) hr rfl,
    sup_blk_apply V c t k q (Cert.Spec.node ⟨t.val % 8, Nat.mod_lt _ (by norm_num)⟩ k) rfl]

/-- After point n the scratch holds, at (p, q), the running total of the bands 0 … n % 8 of row 512 (n / 8) + p. -/
theorem accAt_apply (c : Dev nD) (p : Fin 512) (q : Fin 128) : ∀ (n : ℕ) (hn : n < cfg1.N) (r : Fin 4096),
    r.val = 512 * (n / 8) + p.val →
    accAt V c n hn (ix2 p q) = Cert.Spec.running (bandSumN (adjArr V c) (supArr V c) r q) (n % 8) := by
  intro n
  induction n using Nat.strong_induction_on with
  | _ n ih =>
    intro hn r hr
    by_cases h0 : n % 8 = 0
    · -- a point that starts a row band: zero plus the band's product
      refine (congrFun (accAt_first V c ⟨n, hn⟩ h0) (ix2 p q)).trans ?_
      rw [accA_eq, pay2_apply, pay1_apply]
      refine (congrArg (0 + ·) (band_prod V c ⟨n, hn⟩ p q r hr)).trans ?_
      rw [h0]
      show _ = 0 + bandSumN (adjArr V c) (supArr V c) r q 0
      exact congrArg (0 + ·) (bandSumN_congr _ _ r q (by show n % 8 = 0 % 8; omega))
    · -- a later point: the total of the point before plus this band's product
      refine (congrFun (accAt_next V c ⟨n, hn⟩ h0) (ix2 p q)).trans ?_
      rw [accB_eq, pay2_apply]
      have hlt : n - 1 < n := by omega
      have hr' : r.val = 512 * ((n - 1) / 8) + p.val := by omega
      have e := ih (n - 1) hlt (Nat.lt_of_le_of_lt (Nat.sub_le _ _) hn) r hr'
      refine (congrArg₂ (· + ·) e (band_prod V c ⟨n, hn⟩ p q r hr)).trans ?_
      obtain ⟨m, hm1, hm2⟩ : ∃ m, (n - 1) % 8 = m ∧ n % 8 = m + 1 := ⟨(n - 1) % 8, rfl, by omega⟩
      rw [hm1, hm2]
      show _ = Cert.Spec.running _ m + bandSumN (adjArr V c) (supArr V c) r q (m + 1)
      exact congrArg (Cert.Spec.running _ m + ·) (bandSumN_congr _ _ r q (by show n % 8 = (m + 1) % 8; omega))

/-! ## What a point that ends a row band writes back -/

/-- The array the region leaves: the aggregate of adj and support plus the bias row. -/
abbrev aggArr (c : Dev nD) : FVec Ideal ⟨2, ![4096, 128]⟩ .f32 :=
  Cert.Spec.agg (adjArr V c) (supArr V c) (fun j => biasArr V c (ix2 (0 : Fin 1) (j 0)))

/-- At a point with t % 8 = 7 the output block is block t / 8 of the aggregate: the running total after the eighth
    band is the sum over all 4096 nodes, and the bias row is added once. -/
theorem flushed_eq (c : Dev nD) (t : Fin cfg1.N) (h7 : t.val % 8 = 7) :
    (dat1 V c).flushed 3 t = ((cfg1.win 3).blk t).view.read (Elt Ideal) (aggArr V c) := by
  show (cfg1.win 3).cut (grid1.coords t) ((dat1 V c).after 3 t) = _
  rw [after1_3]
  funext j
  obtain ⟨p, q, rfl⟩ : ∃ (p : Fin 512) (q : Fin 128), j = ix2 p q := ⟨j 0, j 1, eq_ix2 j⟩
  have hN : t.val < 64 := lt_of_lt_of_eq t.isLt N_1
  have hR : 512 * (t.val / 8) + p.val < 4096 := by have := p.isLt; omega
  -- the block's element (p, q) sits at row 512 (t / 8) + p of the array
  have hemb : ((cfg1.win 3).blk t).view.emb (ix2 p q) = ix2 (⟨512 * (t.val / 8) + p.val, hR⟩ : Fin 4096) q := by
    obtain ⟨-, -, -, -, -, -, e0, e1⟩ := idx_maps1 t
    funext a; apply Fin.ext
    match a with
    | ⟨0, _⟩ => show win1_3.index t (0 : Fin 2) * 512 + 1 * p.val = 512 * (t.val / 8) + p.val; omega
    | ⟨1, _⟩ => show win1_3.index t (1 : Fin 2) * 128 + 1 * q.val = q.val; omega
  show outC (accAt V c t.val t.isLt) (biasBlk V c t) (ix2 p q) = aggArr V c (((cfg1.win 3).blk t).view.emb (ix2 p q))
  rw [hemb, outC_eq, pay3_apply, bias_blk_apply,
    accAt_apply V c p q t.val t.isLt ⟨512 * (t.val / 8) + p.val, hR⟩ rfl, h7, Cert.Spec.running_seven]
  show _ = (∑ k : Fin 4096, adjArr V c (ix2 (⟨512 * (t.val / 8) + p.val, hR⟩ : Fin 4096) k) * supArr V c (ix2 k q))
      + biasArr V c (ix2 (0 : Fin 1) q)
  rw [Cert.Spec.sum_bands]
  refine congrArg (· + _) (Finset.sum_congr rfl fun b _ => ?_)
  unfold bandSumN
  exact congrArg (bandSum _ _ _ q) (Fin.ext (Nat.mod_eq_of_lt b.isLt))

/-! ## The output blocks cover the array -/

/-- An index of the output array is in point t's block iff each coordinate is in the block's range on its axis. -/
theorem mem_blk3 (t : Fin cfg1.N) (i : S4096x128.Idx) :
    i ∈ ((cfg1.win 3).blk t).view.set ↔ ∀ a : Fin 2, win1_3.index t a * S512x128.size a ≤ (i a).val
      ∧ (i a).val < win1_3.index t a * S512x128.size a + S512x128.size a := by
  show i ∈ ((View.whole main_v0).slice (win1_3.rect t)).set ↔ _
  rw [View.set_slice_whole, Rect.mem_set_unit]
  exact Iff.rfl

/-- Row r of the array is in the block of the point 8 (r / 512) + 7, which writes back. -/
theorem cover3 (i : S4096x128.Idx) :
    ∃ t : Fin cfg1.N, (cfg1.win 3).flush t = true ∧ i ∈ ((cfg1.win 3).blk t).view.set := by
  have hi0 : (i 0).val < 4096 := (i 0).isLt
  have hi1 : (i 1).val < 128 := (i 1).isLt
  have hlt : 8 * ((i 0).val / 512) + 7 < 64 := by omega
  refine ⟨⟨8 * ((i 0).val / 512) + 7, lt_of_lt_of_eq hlt N_1.symm⟩, (flush1_3 _).2 (by show (8 * ((i 0).val / 512) + 7) % 8 = 7; omega), ?_⟩
  rw [mem_blk3]
  obtain ⟨-, -, -, -, -, -, e0, e1⟩ := idx_maps1 ⟨8 * ((i 0).val / 512) + 7, lt_of_lt_of_eq hlt N_1.symm⟩
  have e0' : win1_3.index ⟨8 * ((i 0).val / 512) + 7, lt_of_lt_of_eq hlt N_1.symm⟩ (0 : Fin 2) = (8 * ((i 0).val / 512) + 7) / 8 := e0
  intro a
  match a with
  | ⟨0, _⟩ =>
    show win1_3.index ⟨8 * ((i 0).val / 512) + 7, lt_of_lt_of_eq hlt N_1.symm⟩ (0 : Fin 2) * 512 ≤ (i 0).val
      ∧ (i 0).val < win1_3.index ⟨8 * ((i 0).val / 512) + 7, lt_of_lt_of_eq hlt N_1.symm⟩ (0 : Fin 2) * 512 + 512
    omega
  | ⟨1, _⟩ =>
    show win1_3.index ⟨8 * ((i 0).val / 512) + 7, lt_of_lt_of_eq hlt N_1.symm⟩ (1 : Fin 2) * 128 ≤ (i 1).val
      ∧ (i 1).val < win1_3.index ⟨8 * ((i 0).val / 512) + 7, lt_of_lt_of_eq hlt N_1.symm⟩ (1 : Fin 2) * 128 + 128
    omega

/-! ## The array after the region -/

/-- After the region the output array holds the aggregate of adj and support plus the bias row. -/
theorem agg_val (c : Dev nD) : (dat1 (F := Ideal) V c).arrAt 3 cfg1.N
    = Cert.Spec.agg (V c main_call0_v3) (V c main_call0_v9) (fun j => V c main_call0_v8 (ix2 (0 : Fin 1) (j 0))) :=
  (dat1 V c).arrAt_eq_of_cover 3 (aggArr V c) (fun t hf => flushed_eq V c t ((flush1_3 t).1 hf)) cover3

end Cert.ReferenceIdeal.Hand
end
-- ==== Proof.RValue.lean ====
/-
  The reference's result array as a function of the four arguments. The last boundary's contents at the result
  array are what region 1's write-backs leave: the aggregate of the adj array, the support array and the bias row
  as region 1 finds them. The support array is what region 0's write-backs leave: the product of the padded x
  and the padded weight. The paddings are empty at these shapes: each padded array is the argument itself, and
  the padded bias row is the bias read along its one row. So the result is the layer's one function of the
  launch memory's four argument arrays.
-/
import proofs.«117604_g2000604348336631_pallaspilot1_43_2_alg».proof.Proof.RRun
import proofs.«117604_g2000604348336631_pallaspilot1_43_2_alg».proof.Proof.RHost
import proofs.«117604_g2000604348336631_pallaspilot1_43_2_alg».proof.Proof.RValue0
import proofs.«117604_g2000604348336631_pallaspilot1_43_2_alg».proof.Proof.RValue1
import proofs.«117604_g2000604348336631_pallaspilot1_43_2_alg».proof.Proof.Spec

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- Region 1 finds the padded adj array at the adj argument: region 0 does not write it. -/
theorem V2_adj : V2 (F := Ideal) m ρ c main_call0_v3 = m ((c.tc : Thread nD τ).loc main_arg1) :=
  (W2_of_ne m ρ c main_call0_v3 (by decide)).trans (host_v3 (W0 m ρ c))

/-- Region 1 finds the padded bias row at the bias argument read along the row. -/
theorem V2_bias : V2 (F := Ideal) m ρ c main_call0_v8 = fun i => m ((c.tc : Thread nD τ).loc main_arg3) (ix1 (i 1)) :=
  (W2_of_ne m ρ c main_call0_v8 (by decide)).trans (host_v8 (W0 m ρ c))

/-- Region 0 finds the padded x and the padded weight at the arguments. -/
theorem V1_x : V1 (F := Ideal) m ρ c main_call0_v1 = m ((c.tc : Thread nD τ).loc main_arg0) := host_v1 (W0 m ρ c)
theorem V1_w : V1 (F := Ideal) m ρ c main_call0_v5 = m ((c.tc : Thread nD τ).loc main_arg2) := host_v5 (W0 m ρ c)

/-- Region 1 finds the support array at what region 0 left: the product of x and weight. -/
theorem V2_sup : V2 (F := Ideal) m ρ c main_call0_v9
    = Cert.Spec.sup (m ((c.tc : Thread nD τ).loc main_arg0)) (m ((c.tc : Thread nD τ).loc main_arg2)) := by
  refine (W2_arr m ρ c 2).trans ?_
  rw [sup_val (V1 m ρ) c, V1_x, V1_w]

/-- The result array at the end: the layer's function of the four arguments. -/
theorem out_val : W3 (F := Ideal) m ρ c (Proc.devRef .tc main_v0)
    = Cert.Spec.out (m ((c.tc : Thread nD τ).loc main_arg0)) (m ((c.tc : Thread nD τ).loc main_arg1))
        (m ((c.tc : Thread nD τ).loc main_arg2)) (m ((c.tc : Thread nD τ).loc main_arg3)) := by
  refine (W3_arr m ρ c 3).trans ?_
  rw [agg_val (V2 m ρ) c, V2_adj, V2_sup, V2_bias]
  unfold Cert.Spec.out
  congr 1
  funext j
  exact congrArg (m ((c.tc : Thread nD τ).loc main_arg3)) (eq_ix1 j).symm

end Cert.ReferenceIdeal.Hand

end
-- ==== Proof.lean ====
/-
  A graph-convolution layer, out = adj · (x · weight) + bias over f32[4096, 256], f32[4096, 4096], f32[256, 128],
  f32[128], as two Pallas kernels (the support x · weight by bands of 512 rows, then adj · support + bias by bands
  of 512 rows, each band one product over all 4096 nodes), against a reference that computes the same support and
  then accumulates adj · support over 8 column bands of 512 nodes in a scratch block, adding the bias after the
  last band; the reference first zero-pads every input, which at these shapes changes nothing.
  Over the extended reals both programs end with the result array at ONE function of the four arguments
  (Proof/Spec.lean's out): the kernel's side directly (each block of each region is the matrix product of its input
  blocks, read at an index as a finite sum), the reference's side because a sum over 4096 nodes is the sum over
  the 8 bands of each band's sum and a running total started at zero that adds one band at a time is that sum.
  Only associativity and commutativity of addition are used, so the finiteness of the inputs is not needed.
  The kernel's frames are the generated ones; the reference's frame is its run (Proof/RRun.lean) with the result
  dropped; the idealization rewrote nothing, so preserves is trivial.
-/
import proofs.«117604_g2000604348336631_pallaspilot1_43_2_alg».proof.Defs
import proofs.«117604_g2000604348336631_pallaspilot1_43_2_alg».proof.Proof.Gen.Kernel
import proofs.«117604_g2000604348336631_pallaspilot1_43_2_alg».proof.Proof.Gen.Kernel.Skeleton
import proofs.«117604_g2000604348336631_pallaspilot1_43_2_alg».proof.Proof.Gen.Kernel.Launch
import proofs.«117604_g2000604348336631_pallaspilot1_43_2_alg».proof.Proof.Gen.Kernel.Points
import proofs.«117604_g2000604348336631_pallaspilot1_43_2_alg».proof.Proof.Gen.Kernel.Frame
import proofs.«117604_g2000604348336631_pallaspilot1_43_2_alg».proof.Proof.Gen.KernelIdeal
import proofs.«117604_g2000604348336631_pallaspilot1_43_2_alg».proof.Proof.Gen.KernelIdeal.Skeleton
import proofs.«117604_g2000604348336631_pallaspilot1_43_2_alg».proof.Proof.Gen.KernelIdeal.Launch
import proofs.«117604_g2000604348336631_pallaspilot1_43_2_alg».proof.Proof.Gen.KernelIdeal.Points
import proofs.«117604_g2000604348336631_pallaspilot1_43_2_alg».proof.Proof.Gen.KernelIdeal.Frame
import proofs.«117604_g2000604348336631_pallaspilot1_43_2_alg».proof.Proof.Gen.ReferenceIdeal
import proofs.«117604_g2000604348336631_pallaspilot1_43_2_alg».proof.Proof.Gen.ReferenceIdeal.Skeleton
import proofs.«117604_g2000604348336631_pallaspilot1_43_2_alg».proof.Proof.Gen.ReferenceIdeal.Launch
import proofs.«117604_g2000604348336631_pallaspilot1_43_2_alg».proof.Proof.Gen.ReferenceIdeal.Regions
import proofs.«117604_g2000604348336631_pallaspilot1_43_2_alg».proof.Proof.Gen.ReferenceIdeal.Points
import proofs.«117604_g2000604348336631_pallaspilot1_43_2_alg».proof.Proof.Gen.Pre_finite_inputs
import proofs.«117604_g2000604348336631_pallaspilot1_43_2_alg».proof.Proof.Spec
import proofs.«117604_g2000604348336631_pallaspilot1_43_2_alg».proof.Proof.KRun
import proofs.«117604_g2000604348336631_pallaspilot1_43_2_alg».proof.Proof.KValue
import proofs.«117604_g2000604348336631_pallaspilot1_43_2_alg».proof.Proof.RRun
import proofs.«117604_g2000604348336631_pallaspilot1_43_2_alg».proof.Proof.RValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference's frame is its run with the result array's contents dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- Both idealized programs end with the result array at the layer's one function of the arguments: the kernel of
    its own memory's arguments, the reference of its own, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' _ hagree =>
    ⟨fun c => Cert.Spec.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      (θ_run Cert.KernelIdeal.defs _ _).mono
        (fun _ h c => ⟨(h c).1.trans (Cert.KernelIdeal.Hand.out_val m ρ c), (h c).2⟩)
        (Cert.KernelIdeal.Hand.run (F := Ideal) m ρ),
      (θ_run Cert.ReferenceIdeal.defs _ _).mono
        (fun _ h c => ⟨(h c).1.trans ((Cert.ReferenceIdeal.Hand.out_val m' ρ' c).trans
            (by rw [(hagree c).1, (hagree c).2.1, (hagree c).2.2.1, (hagree c).2.2.2])), (h c).2⟩)
        (Cert.ReferenceIdeal.Hand.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
